-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S10000x512 : Shape := ⟨2, ![10000, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) (main_arg2 : FVec F S10000x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 10000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x512 : Shape := ⟨2, ![8192, 512]⟩
abbrev S8192 : Shape := ⟨1, ![8192]⟩
abbrev S10000x512 : Shape := ⟨2, ![10000, 512]⟩
abbrev S_ : Shape := ⟨0, ![]⟩
abbrev S10000 : Shape := ⟨1, ![10000]⟩
abbrev S8192x1 : Shape := ⟨2, ![8192, 1]⟩
abbrev S10240x512 : Shape := ⟨2, ![10240, 512]⟩
abbrev S256x512 : Shape := ⟨2, ![256, 512]⟩
abbrev S256x1 : Shape := ⟨2, ![256, 1]⟩
abbrev S2048x512 : Shape := ⟨2, ![2048, 512]⟩
abbrev S256x2048 : Shape := ⟨2, ![256, 2048]⟩
abbrev S256 : Shape := ⟨1, ![256]⟩

abbrev nBuf : Space → Nat
  | .hbm => 45
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S10000x512, .f32⟩
  | .hbm, ⟨3, _⟩ => ⟨S8192x512, .bf16⟩
  | .hbm, ⟨4, _⟩ => ⟨S10000x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S_, .f32⟩
  | .hbm, ⟨17, _⟩ => ⟨S10000x512, .f32⟩
  | .hbm, ⟨18, _⟩ => ⟨S10000x512, .f32⟩
  | .hbm, ⟨19, _⟩ => ⟨S_, .f32⟩
  | .hbm, ⟨20, _⟩ => ⟨S10000, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192x1, .i32⟩
  | .hbm, ⟨33, _⟩ => ⟨S_, .i32⟩
  | .hbm, ⟨34, _⟩ => ⟨S_, .bf16⟩
  | .hbm, ⟨35, _⟩ => ⟨S10240x512, .bf16⟩
  | .hbm, ⟨36, _⟩ => ⟨S8192x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S256x512, .bf16⟩
  | .local _ .vmem, ⟨1, _⟩ => ⟨S256x512, .bf16⟩
  | .local _ .vmem, ⟨2, _⟩ => ⟨S10240x512, .bf16⟩
  | .local _ .vmem, ⟨3, _⟩ => ⟨S256x1, .i32⟩
  | .local _ .vmem, ⟨4, _⟩ => ⟨S256x1, .i32⟩
  | .local _ .vmem, ⟨5, _⟩ => ⟨S256x1, .f32⟩
  | .local _ .vmem, ⟨6, _⟩ => ⟨S256x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c5_i32 : BitVec 32 := 5#32
  let v6 : BitVec 32 := Scalar.addi c0_i32 c5_i32
  let c1_i32 : BitVec 32 := 1#32
  ⟨c0_i32, v6, c1_i32⟩
def k0_mult1 (k0_t1 : Fin k0_t1_loop.trips) : BitVec 32 :=
  let c0_i32_7 : BitVec 32 := 0#32
  let c0_i32 : BitVec 32 := 0#32
  let c1_i32 : BitVec 32 := 1#32
  let arg5 : BitVec 32 := Scf.iv c0_i32 c1_i32 k0_t1
  let c1_i32_6 : BitVec 32 := 1#32
  let v7 : BitVec 32 := Scalar.muli arg5 c1_i32_6
  let v8 : BitVec 32 := Scalar.addi c0_i32_7 v7
  let c2048_i32 : BitVec 32 := 2048#32
  let v9 : BitVec 32 := Scalar.muli v8 c2048_i32
  v9
def k0_off1 (k0_t1 : Fin k0_t1_loop.trips) : Fin 2 → Nat :=
  let c0_i32_7 : BitVec 32 := 0#32
  let c0_i32 : BitVec 32 := 0#32
  let c1_i32 : BitVec 32 := 1#32
  let arg5 : BitVec 32 := Scf.iv c0_i32 c1_i32 k0_t1
  let c1_i32_6 : BitVec 32 := 1#32
  let v7 : BitVec 32 := Scalar.muli arg5 c1_i32_6
  let v8 : BitVec 32 := Scalar.addi c0_i32_7 v7
  let c2048_i32 : BitVec 32 := 2048#32
  let v9 : BitVec 32 := Scalar.muli v8 c2048_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S8192 : S_.BroadcastsInDim S8192 (![] : Fin 0 → Fin S8192.rank)
  reducesTo_S8192x512_S_d0_1 : S8192x512.ReducesTo [0, 1] S_
  h_S_ : 0 < S_.numel
  reducesTo_S10000x512_S10000_d1 : S10000x512.ReducesTo [1] S10000
  bcast_S8192_S8192x1_0 : S8192.BroadcastsInDim S8192x1 (![0] : Fin 1 → Fin S8192x1.rank)
  reducesTo_S8192_S_d0 : S8192.ReducesTo [0] S_
  pads_S10000x512_S10240x512_02400_000 : S10000x512.Pads (![0, 0] : Fin 2 → Nat) ![240, 0] ![0, 0] S10240x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S2048x512 : 0 < S2048x512.numel
  shapeCasts_S2048x512_S2048x512 : S2048x512.ShapeCasts S2048x512
  iota_S256x2048_d1_w32 : S256x2048.Iotas .tc 32 [1]
  broadcasts_S256x1_S256x2048 : S256x1.Broadcasts S256x2048
  reduces_S256x2048_S256 : S256x2048.Reduces [1] S256
  shapeCasts_S256_S256x1 : S256.ShapeCasts S256x1
  reducesTo_S8192x1_S_d0_1 : S8192x1.ReducesTo [0, 1] S_
  gather_S10000_S8192x1_S8192_n_0_n_n_0_1_1_wf : GatherDims.WF S10000 S8192x1 S8192 [] [0] [] [0] [] 1 ![1]
  dot_S256x512_S2048x512_S256x2048_1_1_0_0_n_n_wf : DotDims.WF S256x512 S2048x512 S256x2048 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x512.size a ≤ S10240x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .bf16 = 32 ∨ (Rect.block (s := S8192x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x512.size a ≤ S10240x512.size a
  hwx0_1 : ∀ i : grid0.Coords, EltTy.bits .bf16 = 32 ∨ (Rect.block (s := S10240x512) S10240x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def gather_S10000_S8192x1_S8192_n_0_n_n_0_1_1 : GatherDims S10000 S8192x1 S8192 where
  offsetDims := []
  collapsedSliceDims := [0]
  operandBatchingDims := []
  startIndicesBatchingDims := []
  startIndexMap := [0]
  indexVectorDim := 1
  sliceSizes := ![1]
  wf := gather_S10000_S8192x1_S8192_n_0_n_n_0_1_1_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10240x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S10000x512 : Shape := ⟨2, ![10000, 512]⟩
abbrev S_ : Shape := ⟨0, ![]⟩
abbrev S8192x1 : Shape := ⟨2, ![8192, 1]⟩
abbrev S10000 : Shape := ⟨1, ![10000]⟩
abbrev S1x10000 : Shape := ⟨2, ![1, 10000]⟩
abbrev S8192x10000 : Shape := ⟨2, ![8192, 10000]⟩
abbrev S512x10000 : Shape := ⟨2, ![512, 10000]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S10000x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S8192x10000, .f32⟩
  | .hbm, ⟨12, _⟩ => ⟨S8192x10000, .f32⟩
  | .hbm, ⟨13, _⟩ => ⟨S8192x10000, .f32⟩
  | .hbm, ⟨14, _⟩ => ⟨S512x10000, .f32⟩
  | .hbm, ⟨15, _⟩ => ⟨S8192x10000, .f32⟩
  | .hbm, ⟨16, _⟩ => ⟨S_, .f32⟩
  | .hbm, ⟨17, _⟩ => ⟨S8192x10000, .f32⟩
  | .hbm, ⟨18, _⟩ => ⟨S8192x10000, .f32⟩
  | .hbm, ⟨19, _⟩ => ⟨S8192x10000, .f32⟩
  | .hbm, ⟨20, _⟩ => ⟨S8192x1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1x1, .i32⟩
  | .hbm, ⟨29, _⟩ => ⟨S1, .i32⟩
  | .hbm, ⟨30, _⟩ => ⟨S_, .i32⟩
  | .hbm, ⟨31, _⟩ => ⟨S8192x1x1, .i32⟩
  | .hbm, ⟨32, _⟩ => ⟨S8192x1x1, .i1⟩
  | .hbm, ⟨33, _⟩ => ⟨S1x1x1, .i32⟩
  | .hbm, ⟨34, _⟩ => ⟨S8192x1x1, .i32⟩
  | .hbm, ⟨35, _⟩ => ⟨S8192x1x1, .i1⟩
  | .hbm, ⟨36, _⟩ => ⟨S8192x1x1, .i1⟩
  | .hbm, ⟨37, _⟩ => ⟨S_, .i1⟩
  | .hbm, ⟨38, _⟩ => ⟨S8192x1, .i1⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S10000x512_S10000_d1 : S10000x512.ReducesTo [1] S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  transposes_S10000x512_S512x10000_1_0 : S10000x512.Transposes [1, 0] S512x10000
  bcast_S_S8192x10000 : S_.BroadcastsInDim S8192x10000 (![] : Fin 0 → Fin S8192x10000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x512_S512x10000_S8192x10000_1_0_0_1_n_n_wf : DotDims.WF S8192x512 S512x10000 S8192x10000 [1] [0] [0] [1] [] []
  gather_S8192x10000_S8192x1x1_S8192x1_n_1_0_0_1_2_11_wf : GatherDims.WF S8192x10000 S8192x1x1 S8192x1 [] [1] [0] [1] [0] 2 ![1, 1]

variable [Facts₀]

def dot_S8192x512_S512x10000_S8192x10000_1_0_0_1_n_n : DotDims S8192x512 S512x10000 S8192x10000 where
  lhsContracting := [1]
  rhsContracting := [0]
  lhsNonContracting := [0]
  rhsNonContracting := [1]
  lhsBatch := []
  rhsBatch := []
  wf := dot_S8192x512_S512x10000_S8192x10000_1_0_0_1_n_n_wf
def gather_S8192x10000_S8192x1x1_S8192x1_n_1_0_0_1_2_11 : GatherDims S8192x10000 S8192x1x1 S8192x1 where
  offsetDims := []
  collapsedSliceDims := [1]
  operandBatchingDims := [0]
  startIndicesBatchingDims := [0]
  startIndexMap := [1]
  indexVectorDim := 2
  sliceSizes := ![1, 1]
  wf := gather_S8192x10000_S8192x1x1_S8192x1_n_1_0_0_1_2_11_wf

class Facts : Prop extends Facts₀ where

variable [Facts]
-- ==== Proof.HostSide.lean ====
/-
  The kernel program's host side: what the region finds in its operand arrays, the two scalars computed before the region
  that the last lines read, and the last lines themselves.

  Before the region: the features and the centres change format (no change of value over the extended reals); the labels
  are clipped into [0, 9999] and laid out as a column; the centres are padded with 240 zero rows to [10240, 512]; the sum
  of all squared features; and the sum over the rows of the squared length of the centre row the clipped label names. After
  the region, with `rows` the [8192, 1] array it wrote: ((sum of squared features + sum of selected squared lengths)
  − 2 · sum of `rows`) / 8192.
-/
import proofs.«402682_j45681272160610_3_alg».proof.Proof.Gen.KernelIdeal.Frame
import Idealize.ShloMosaic.Lib.Pipeline.Value
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## The stages, as functions of the argument arrays -/

/-- The features and the centres in the kernel's operand format. -/
def feat (x0 : FVec F S8192x512 .f32) : FVec F S8192x512 .bf16 := truncf .bf16 x0 bitsLt_bf16_f32
def cen (x2 : FVec F S10000x512 .f32) : FVec F S10000x512 .bf16 := truncf .bf16 x2 bitsLt_bf16_f32

/-- The labels clipped into [0, 9999]. -/
def clip (x1 : IVec S8192 32) : IVec S8192 32 :=
  minsi (broadcastInDim S8192 ![] bcast_S_S8192 (id (constantI S_ 32 9999#32)))
    (maxsi (broadcastInDim S8192 ![] bcast_S_S8192 (id (constantI S_ 32 0#32))) x1)

/-- The clipped labels as a column. -/
def labCol (x1 : IVec S8192 32) : IVec S8192x1 32 := broadcastInDim S8192x1 ![0] bcast_S8192_S8192x1_0 (clip x1)

/-- The centres padded with zero rows to 10240 rows. -/
def cenPad (x2 : FVec F S10000x512 .f32) : FVec F S10240x512 .bf16 :=
  pad S10240x512 ![0, 0] ![240, 0] ![0, 0] (cen x2) (sitofp .bf16 (constantI S_ 32 0#32)) pads_S10000x512_S10240x512_02400_000 h_S_

/-- The sum of all squared features. -/
def fsqAll (x0 : FVec F S8192x512 .f32) : FVec F S_ .f32 :=
  Host.reduceAdd (mulf (extf .f32 (feat x0) bitsLt_bf16_f32) (extf .f32 (feat x0) bitsLt_bf16_f32)) (constant S_ .f32 0x00000000#32)
    reducesTo_S8192x512_S_d0_1 h_S_

/-- The squared length of every centre row. -/
def csqRows (x2 : FVec F S10000x512 .f32) : FVec F S10000 .f32 :=
  Host.reduceAdd (mulf (extf .f32 (cen x2) bitsLt_bf16_f32) (extf .f32 (cen x2) bitsLt_bf16_f32)) (constant S_ .f32 0x00000000#32)
    reducesTo_S10000x512_S10000_d1 h_S_

/-- The clipped labels as gather indices: a negative one moved up by 10000 (none is), as a column. -/
def wrapIdx (x1 : IVec S8192 32) : IVec S8192x1 32 :=
  broadcastInDim S8192x1 ![0] bcast_S8192_S8192x1_0
    (select (cmpi .slt (clip x1) (broadcastInDim S8192 ![] bcast_S_S8192 (constantI S_ 32 0#32)))
      (addi (clip x1) (broadcastInDim S8192 ![] bcast_S_S8192 (constantI S_ 32 10000#32))) (clip x1))

/-- The sum over the rows of the squared length of the centre row the row's label names. -/
def csqSel (x1 : IVec S8192 32) (x2 : FVec F S10000x512 .f32) : FVec F S_ .f32 :=
  Host.reduceAdd (Host.gather gather_S10000_S8192x1_S8192_n_0_n_n_0_1_1 (csqRows x2) (wrapIdx x1)) (constant S_ .f32 0x00000000#32)
    reducesTo_S8192_S_d0 h_S_

/-- The last lines: from the two scalars and the region's [8192, 1] array to the result. -/
def tail (s5 s16 : FVec F S_ .f32) (rows : FVec F S8192x1 .f32) : FVec F S_ .f32 :=
  Host.divf
    (subf (addf s5 s16)
      (mulf (constant S_ .f32 0x40000000#32) (Host.reduceAdd rows (constant S_ .f32 0x00000000#32) reducesTo_S8192x1_S_d0_1 h_S_)))
    (constant S_ .f32 0x46000000#32)

/-! ## What the region finds -/

variable (m : (ℓ : Loc nD τ sig) → Buf (Elt F) ℓ)

set_option maxHeartbeats 1000000 in
theorem V_v0 (c : Dev nD) : (V m c main_v0 : S8192x512.Idx → F .bf16) = feat (m ((c : Thread nD τ).loc main_arg0)) := by
  dsimp only [V, V0]
  simp only [hostOps0, hostOps0_1, hostOps0_2, hostOps0_3, List.flatten_cons, List.flatten_nil, List.append_nil, List.cons_append, List.nil_append]
  after_results
  rfl

set_option maxHeartbeats 1000000 in
theorem V_v17 (c : Dev nD) : (V m c main_v17 : S8192x1.Idx → BitVec 32) = labCol (m ((c : Thread nD τ).loc main_arg1)) := by
  dsimp only [V, V0]
  simp only [hostOps0, hostOps0_1, hostOps0_2, hostOps0_3, List.flatten_cons, List.flatten_nil, List.append_nil, List.cons_append, List.nil_append]
  after_results
  simp only [TRef.ofBuf, TRef.toBuf, cast_eq]
  rfl

set_option maxHeartbeats 1000000 in
theorem V_v18 (c : Dev nD) : (V m c main_v18 : S10240x512.Idx → F .bf16) = cenPad (m ((c : Thread nD τ).loc main_arg2)) := by
  dsimp only [V, V0]
  simp only [hostOps0, hostOps0_1, hostOps0_2, hostOps0_3, List.flatten_cons, List.flatten_nil, List.append_nil, List.cons_append, List.nil_append]
  after_results
  simp only [TRef.ofBuf, TRef.toBuf, cast_eq]
  rfl

set_option maxHeartbeats 2000000 in
theorem V_v5 (c : Dev nD) : (V m c main_v5 : S_.Idx → F .f32) = fsqAll (m ((c : Thread nD τ).loc main_arg0)) := by
  dsimp only [V, V0]
  simp only [hostOps0, hostOps0_1, hostOps0_2, hostOps0_3, List.flatten_cons, List.flatten_nil, List.append_nil, List.cons_append, List.nil_append]
  after_results
  rfl

set_option maxHeartbeats 4000000 in
theorem V_v16 (c : Dev nD) :
    (V m c main_v16 : S_.Idx → F .f32) = csqSel (m ((c : Thread nD τ).loc main_arg1)) (m ((c : Thread nD τ).loc main_arg2)) := by
  dsimp only [V, V0]
  simp only [hostOps0, hostOps0_1, hostOps0_2, hostOps0_3, List.flatten_cons, List.flatten_nil, List.append_nil, List.cons_append, List.nil_append]
  after_results_simp
  simp only [TRef.ofBuf, TRef.toBuf, cast_eq]
  rfl

end Cert.KernelIdeal.HostSide

end
-- ==== Proof.Spec.lean ====
/-
  The centre loss as plain sums over the extended reals.

  For features `f : [8192, 512]`, centres `c : [10000, 512]` and label words `y : [8192]`, write `lab y i` for the class
  row `i`'s label names, `fsq f i = Σ_d f[i,d]²`, `csq c j = Σ_d c[j,d]²` and `rowdot f c i j = Σ_d f[i,d]·c[j,d]`.
  Both programs end at a numerator divided by the same word (8192):

    the kernel's      `numK = (Σ_i Σ_d f[i,d]² + Σ_i csq c (lab y i)) − two · Σ_i rowdot f c i (lab y i)`
    the reference's   `numR = Σ_i ((fsq f i + csq c (lab y i)) − two · rowdot f c i (lab y i))`

  the first with the three sums taken apart, the second row by row. They are the same number when every entry is a
  real number (a sum of differences is the difference of the sums, and a real factor moves across a sum); on the extended
  reals with infinite entries they need not be.
-/
import Idealize.ShloMosaic.PureOps.Ideal
import Idealize.ShloMosaic.Lib.ValueIdx

noncomputable section

namespace Cert.Loss

open Idealize.ShloMosaic Idealize.ShloMosaic.ValueIdx

/-- The features' and the centres' shapes, the labels', and the per-row results'. -/
abbrev SF : Shape := ⟨2, ![8192, 512]⟩
abbrev SC : Shape := ⟨2, ![10000, 512]⟩
abbrev SY : Shape := ⟨1, ![8192]⟩

/-- The class a label word names: its value as a natural number, folded into the range of classes (for a word already
    below 10000 it is the word's value). -/
def lab (y : SY.Idx → BitVec 32) (i : Fin 8192) : Fin 10000 :=
  ⟨(y (ix1 i)).toNat % 10000, Nat.mod_lt _ (by norm_num)⟩

theorem lab_val (y : SY.Idx → BitVec 32) (i : Fin 8192) (h : (y (ix1 i)).toNat < 10000) :
    (lab y i).val = (y (ix1 i)).toNat := Nat.mod_eq_of_lt h

/-- Row `i` of the features against row `j` of the centres. -/
def rowdot (f : SF.Idx → EReal) (c : SC.Idx → EReal) (i : Fin 8192) (j : Fin 10000) : EReal :=
  ∑ d : Fin 512, f (ix2 i d) * c (ix2 j d)

/-- The squared length of feature row `i`, and of centre row `j`. -/
def fsq (f : SF.Idx → EReal) (i : Fin 8192) : EReal := ∑ d : Fin 512, f (ix2 i d) * f (ix2 i d)
def csq (c : SC.Idx → EReal) (j : Fin 10000) : EReal := ∑ d : Fin 512, c (ix2 j d) * c (ix2 j d)

/-- The kernel's numerator: the three sums taken apart. -/
def numK (two : EReal) (f : SF.Idx → EReal) (y : SY.Idx → BitVec 32) (c : SC.Idx → EReal) : EReal :=
  ((∑ i : Fin 8192, ∑ d : Fin 512, f (ix2 i d) * f (ix2 i d)) + ∑ i : Fin 8192, csq c (lab y i))
    - two * ∑ i : Fin 8192, rowdot f c i (lab y i)

/-- The reference's numerator: row by row. -/
def numR (two : EReal) (f : SF.Idx → EReal) (y : SY.Idx → BitVec 32) (c : SC.Idx → EReal) : EReal :=
  ∑ i : Fin 8192, ((fsq f i + csq c (lab y i)) - two * rowdot f c i (lab y i))

/-- The words both programs carry: 2 and 8192 as f32. -/
abbrev twoW : EReal := Ideal.ofBits .f32 0x40000000#32
abbrev nW : EReal := Ideal.ofBits .f32 0x46000000#32

/-- The loss from a numerator. -/
def lossOf (num : EReal) : EReal := Ideal.div num nW

end Cert.Loss

end
-- ==== Proof.HostIdeal.lean ====
/-
  The kernel program's host stages over the extended reals, when every label word is a class below 10000.

  A change of float format is the identity; a class word is left alone by the clip into [0, 9999] and is not negative, so
  the label column holds the labels themselves and the squared lengths are taken at the labels' own rows; a padded centre
  row below row 10000 is the centre row; the host sums are plain sums (their zero initial value adds nothing); and the last
  lines are (s5 + s16 − 2 · Σ rows) / 8192.
-/
import proofs.«402682_j45681272160610_3_alg».proof.Proof.HostSide
import proofs.«402682_j45681272160610_3_alg».proof.Proof.Spec
import Idealize.ShloMosaic.Lib.StableHlo.Predicate
import Idealize.ShloMosaic.Lib.KernelVsHost
import Idealize.ShloMosaic.Lib.ValueIdx
import Idealize.ShloMosaic.Lib.ValueIdxRank1
import Idealize.ShloMosaic.PureOps.Ideal.Laws

noncomputable section

namespace Cert.KernelIdeal.HostIdeal

open Cert.KernelIdeal Cert.KernelIdeal.Gen Cert.KernelIdeal.HostSide Cert.Loss
open Idealize.ShloMosaic Idealize.ShloMosaic.ValueIdx Idealize.ShloMosaic.StableHlo.Predicate

/-! ## Indices -/

theorem ofFin_eq_ix1 {n : Nat} (k : Fin n) : Shape.Idx.ofFin k = ix1 k :=
  funext fun a => by match a with | ⟨0, _⟩ => exact Fin.ext rfl
theorem ixP_eq_ix2 {n : Nat} (p : Fin n) : ixP p = ix2 p (0 : Fin 1) :=
  funext fun a => by match a with | ⟨0, _⟩ => rfl | ⟨1, _⟩ => rfl

/-- A sum over a rank-one index set is the sum over its coordinate. -/
theorem sum_idx1 {M : Type*} [AddCommMonoid M] {n : Nat} (g : (⟨1, ![n]⟩ : Shape).Idx → M) : ∑ j, g j = ∑ i : Fin n, g (ix1 i) :=
  (Equiv.sum_comp (idxEquiv1 (n := n)).symm g).symm

/-! ## Formats -/

theorem feat_eq (x0 : FVec Ideal S8192x512 .f32) : feat (F := Ideal) x0 = x0 := rfl
theorem cen_eq (x2 : FVec Ideal S10000x512 .f32) : cen (F := Ideal) x2 = x2 := rfl

/-! ## The labels -/

/-- A class word is left alone by the clip into [0, 9999]. -/
theorem clip_word (w : BitVec 32) (hw : w.toNat < 10000) : IntOp.minsi 9999#32 (IntOp.maxsi 0#32 w) = w := by
  have h1 : ¬ (w.slt 0#32 = true) := fun h => by
    have := (slt_bool_iff_toNat (a := w) (b := 0#32) (by omega) (by decide)).mp (by rw [h]; rfl)
    exact Nat.not_lt_zero _ this
  have e1 : IntOp.maxsi 0#32 w = w := by unfold IntOp.maxsi; exact if_neg h1
  have h2 : ¬ ((9999#32 : BitVec 32).slt w = true) := fun h => by
    have := (slt_bool_iff_toNat (a := 9999#32) (b := w) (by decide) (by omega)).mp (by rw [h]; rfl)
    have e : (9999#32 : BitVec 32).toNat = 9999 := by decide
    omega
  rw [e1]; unfold IntOp.minsi; exact if_neg h2

/-- A class word is not negative. -/
theorem not_neg_word (w : BitVec 32) (hw : w.toNat < 10000) : IntOp.cmpi .slt w 0#32 = 0#1 := by
  have h1 : ¬ (IntOp.cmpi .slt w 0#32 = 1#1) := fun h => by
    have := (slt_iff_toNat (a := w) (b := 0#32) (by omega) (by decide)).mp h
    exact Nat.not_lt_zero _ this
  revert h1; generalize IntOp.cmpi .slt w 0#32 = b; revert b; decide

section
variable (x1 : IVec S8192 32) (hlab : ∀ i : Fin 8192, (x1 (ix1 i)).toNat < 10000)
include hlab

theorem clip_apply (i : Fin 8192) : clip x1 (ix1 i) = x1 (ix1 i) := by
  show IntOp.minsi 9999#32 (IntOp.maxsi 0#32 (x1 (ix1 i))) = _
  exact clip_word _ (hlab i)

/-- The label column holds the labels. -/
theorem labCol_apply (i : Fin 8192) : labCol x1 (ix2 i (0 : Fin 1)) = x1 (ix1 i) := by
  unfold labCol
  rw [← ixP_eq_ix2, bcast_col1 bcast_S8192_S8192x1_0 (clip x1) i, ofFin_eq_ix1]
  exact clip_apply x1 hlab i

/-- The gather indices are the labels. -/
theorem wrapIdx_apply (i : Fin 8192) : wrapIdx x1 (ixP i) = x1 (ix1 i) := by
  unfold wrapIdx
  rw [bcast_col1 bcast_S8192_S8192x1_0 _ i, ofFin_eq_ix1]
  show Scalar.select (IntOp.cmpi .slt (clip x1 (ix1 i)) 0#32) (IntOp.addi (clip x1 (ix1 i)) 10000#32) (clip x1 (ix1 i)) = _
  rw [clip_apply x1 hlab i, not_neg_word _ (hlab i)]
  rfl
end

/-! ## The centres -/

/-- A padded row below row 10000 is the centre row. -/
theorem cenPad_apply (x2 : FVec Ideal S10000x512 .f32) (j : Fin 10240) (d : Fin 512) (hj : j.val < 10000) :
    cenPad (F := Ideal) x2 (ix2 j d) = x2 (ix2 ⟨j.val, hj⟩ d) := by
  unfold cenPad
  refine pad_apply_of_inside _ _ _ _ _ pads_S10000x512_S10240x512_02400_000 h_S_ (ix2 j d) (ix2 ⟨j.val, hj⟩ d) fun a => ?_
  match a with
  | ⟨0, _⟩ => show j.val = 0 + j.val * (0 + 1); omega
  | ⟨1, _⟩ => show d.val = 0 + d.val * (0 + 1); omega

/-- The squared length of centre row `j`. -/
theorem csqRows_apply (x2 : FVec Ideal S10000x512 .f32) (j : Fin 10000) : csqRows (F := Ideal) x2 (ix1 j) = csq x2 j := by
  unfold csqRows
  simp only [Host.reduceAdd, Ideal.hostReduceAdd_def]
  rw [Ideal.hostReduceAdd_single reducesTo_S10000x512_S10000_d1 (by decide)]
  show Ideal.ofBits .f32 0x00000000#32 + _ = _
  rw [Ideal.ofBits_zero_f32, zero_add]
  unfold csq
  refine Finset.sum_congr rfl fun k _ => ?_
  have e : (by decide : S10000x512.Reduces [1] S10000).lift (ix1 j) k = ix2 j k :=
    funext fun a => Fin.ext (by match a with | ⟨0, _⟩ => rfl | ⟨1, _⟩ => rfl)
  show x2 _ * x2 _ = _
  rw [e]
  rfl

/-! ## The two scalars -/

/-- The sum of all squared features, as a double sum. -/
theorem fsqAll_eq (x0 : FVec Ideal S8192x512 .f32) :
    fsqAll (F := Ideal) x0 = fun _ => ∑ i : Fin 8192, ∑ d : Fin 512, x0 (ix2 i d) * x0 (ix2 i d) := by
  funext u
  unfold fsqAll
  simp only [Host.reduceAdd, Ideal.hostReduceAdd_def]
  rw [Ideal.hostReduceAdd_total reducesTo_S8192x512_S_d0_1 (fun b => b.elim0)]
  show Ideal.ofBits .f32 0x00000000#32 + ∑ idx : S8192x512.Idx, x0 idx * x0 idx = _
  rw [Ideal.ofBits_zero_f32, zero_add, sum_idx2]

/-- The gather of a [10000] table by the label column reads, at row `i`, the table at the row's class. -/
theorem take_apply (tbl : FVec Ideal S10000 .f32) (x1 : IVec S8192 32) (hlab : ∀ i : Fin 8192, (x1 (ix1 i)).toNat < 10000) (i : Fin 8192) :
    Host.gather gather_S10000_S8192x1_S8192_n_0_n_n_0_1_1 tbl (wrapIdx x1) (ix1 i) = tbl (ix1 (lab x1 i)) := by
  have hg := gather_take gather_S10000_S8192x1_S8192_n_0_n_n_0_1_1 rfl rfl rfl rfl tbl (wrapIdx x1) i (by decide)
  rw [ofFin_eq_ix1] at hg
  refine hg.trans (congrArg tbl (funext fun a => Fin.ext ?_))
  have hw := wrapIdx_apply x1 hlab i
  have hi := hlab i
  have ht : (x1 (ix1 i)).toInt.toNat = (x1 (ix1 i)).toNat := by
    rw [toInt_eq_toNat_of_lt (by omega)]; rfl
  match a with
  | ⟨0, _⟩ =>
    show min (wrapIdx x1 (ixP i)).toInt.toNat (10000 - 1) = (x1 (ix1 i)).toNat % 10000
    rw [hw, ht, Nat.mod_eq_of_lt hi]; omega

/-- The sum over the rows of the squared length of the labelled centre row. -/
theorem csqSel_eq (x1 : IVec S8192 32) (x2 : FVec Ideal S10000x512 .f32) (hlab : ∀ i : Fin 8192, (x1 (ix1 i)).toNat < 10000) :
    csqSel (F := Ideal) x1 x2 = fun _ => ∑ i : Fin 8192, csq x2 (lab x1 i) := by
  funext u
  unfold csqSel
  generalize hT : csqRows (F := Ideal) x2 = tbl
  simp only [Host.reduceAdd, Ideal.hostReduceAdd_def]
  rw [Ideal.hostReduceAdd_total reducesTo_S8192_S_d0 (fun b => b.elim0)]
  show Ideal.ofBits .f32 0x00000000#32 + ∑ j : S8192.Idx, Host.gather gather_S10000_S8192x1_S8192_n_0_n_n_0_1_1 tbl (wrapIdx x1) j = _
  rw [Ideal.ofBits_zero_f32, zero_add, sum_idx1]
  refine Finset.sum_congr rfl fun i _ => ?_
  rw [take_apply tbl x1 hlab i, ← hT]
  exact csqRows_apply x2 (lab x1 i)

/-! ## The last lines -/

theorem tail_eq (s5 s16 : FVec Ideal S_ .f32) (rows : FVec Ideal S8192x1 .f32) :
    tail (F := Ideal) s5 s16 rows
      = fun _ => lossOf ((s5 ix0 + s16 ix0) - twoW * ∑ i : Fin 8192, rows (ix2 i (0 : Fin 1))) := by
  funext u
  obtain rfl : u = ix0 := Subsingleton.elim _ _
  unfold tail
  simp only [Host.divf, Host.reduceAdd, Ideal.hostReduceAdd_def]
  show Ideal.div ((s5 ix0 + s16 ix0) - Ideal.ofBits .f32 0x40000000#32 * Ideal.hostReduceAdd reducesTo_S8192x1_S_d0_1 rows (Ideal.ofBits .f32 0x00000000#32) ix0)
    (Ideal.ofBits .f32 0x46000000#32) = _
  rw [Ideal.hostReduceAdd_total reducesTo_S8192x1_S_d0_1 (fun b => b.elim0), Ideal.ofBits_zero_f32, zero_add, sum_idx2]
  unfold lossOf
  refine congrArg (fun s => Ideal.div ((s5 ix0 + s16 ix0) - twoW * s) nW) ?_
  exact Finset.sum_congr rfl fun i _ => Fintype.sum_unique _

end Cert.KernelIdeal.HostIdeal

end
-- ==== Proof.HostTail.lean ====
/-
  The result buffer after the whole program, read off the frame run: the last lines applied to the two scalars computed
  before the region (which the region does not touch) and to the [8192, 1] array the region wrote.
-/
import proofs.«402682_j45681272160610_3_alg».proof.Proof.HostSide
import Idealize.ShloMosaic.Lib.Pipeline.Value
import Idealize.ShloMosaic.Lib.StableHlo.Run

set_option maxRecDepth 16384

noncomputable section

namespace Cert.KernelIdeal.HostTail

open Cert.KernelIdeal Cert.KernelIdeal.Gen Cert.KernelIdeal.HostSide
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

theorem tail_of_frame (c : Dev nD) :
    (Pipeline.afterTail₀ cfgs (dats m) 0 (V0 m) [hostOps1] c main_v24 : S_.Idx → F .f32)
      = tail (V m c main_v5) (V m c main_v16) ((dats m 0 c).arrAt 3 cfg0.N) := by
  unfold Pipeline.afterTail₀
  show StableHlo.after hostOps1 _ (Proc.devRef .tc main_v24) = _
  after_results
  have e19 : Pipeline.withArrays (cfgs 0).spec c (V0 m c) (fun w => (dats m 0 c).arrAt w (cfgs 0).N) (Proc.devRef .tc main_v19)
      = (dats m 0 c).arrAt 3 cfg0.N :=
    Pipeline.withArrays_arr spec0 launch0.win.arr_inj c (V0 m c) (fun w => (dats m 0 c).arrAt w (cfgs 0).N) 3
  have e5 : Pipeline.withArrays (cfgs 0).spec c (V0 m c) (fun w => (dats m 0 c).arrAt w (cfgs 0).N) (Proc.devRef .tc main_v5)
      = V m c main_v5 :=
    Pipeline.withArrays_of_ne _ c (V0 m c) _ main_v5 (by exact (by decide : ∀ w, Pipeline.arrRef spec0 w ≠ main_v5))
  have e16 : Pipeline.withArrays (cfgs 0).spec c (V0 m c) (fun w => (dats m 0 c).arrAt w (cfgs 0).N) (Proc.devRef .tc main_v16)
      = V m c main_v16 :=
    Pipeline.withArrays_of_ne _ c (V0 m c) _ main_v16 (by exact (by decide : ∀ w, Pipeline.arrRef spec0 w ≠ main_v16))
  rw [e19, e5, e16]
  rfl

end Cert.KernelIdeal.HostTail

end
-- ==== Proof.BlockRun.lean ====
/-
  What one grid point leaves in its output block, as a recursion over the five column chunks.

  The body zeroes the [256, 1] block and then, for each chunk `k` of 2048 centre rows, reads the block back, adds that
  chunk's masked row sums to it and stores it whole again. So the block after the point is

      acc 0 = 0,      acc (k + 1) = acc k + (chunk k's row sums),      block = acc 5,

  each step being the body's one arithmetic term (its second payload) of the feature block, the label block, the chunk
  of the centres buffer the trip loads and the block as the trip finds it. Every store covers the whole block, so what a
  trip reads back, and what the point leaves, is the latest store's value.
-/
import proofs.«402682_j45681272160610_3_alg».proof.Proof.Gen.KernelIdeal.Frame
import Idealize.ShloMosaic.Lib.Pipeline.Value

set_option maxRecDepth 16384

noncomputable section

namespace Cert.KernelIdeal.BlockRun

open Cert.KernelIdeal Cert.KernelIdeal.Gen
open Idealize.ShloMosaic Idealize.ShloMosaic.TcCoe Idealize.ShloMosaic.Tactic
open Idealize.SL Idealize.SL.Sem

variable {F : FTy → Type} [FloatOps F]

/-- Chunk `k` of the resident [10240, 512] centres buffer: the 2048 rows from row `2048 · k`. -/
def chunk (x1 : Vec F S10240x512 .bf16) (k : Fin k0_t1_loop.trips) : Vec F S2048x512 .bf16 :=
  View.ld x1 (Rect.unit (s := S10240x512) (k0_off1 k) S2048x512.size (k0_off1_inb k))

/-- The block after the first `k` chunks. -/
def acc (x0 : Vec F S256x512 .bf16) (x1 : Vec F S10240x512 .bf16) (x2 : Vec F S256x1 .i32) : ℕ → Vec F S256x1 .f32
  | 0 => k0_pay1
  | k + 1 => if h : k < k0_t1_loop.trips then k0_pay2 x0 x2 ⟨k, h⟩ (chunk x1 ⟨k, h⟩) (acc x0 x1 x2 k) else acc x0 x1 x2 k

theorem acc_succ (x0 : Vec F S256x512 .bf16) (x1 : Vec F S10240x512 .bf16) (x2 : Vec F S256x1 .i32) (k : Fin k0_t1_loop.trips) :
    acc x0 x1 x2 (k.val + 1) = k0_pay2 x0 x2 k (chunk x1 k) (acc x0 x1 x2 k.val) := by
  rw [acc]; exact dif_pos k.isLt

/-- The block's offsets spelt `![0, 0]` are the zero offsets. -/
theorem hz : (![0, 0] : Fin S256x1.rank → Nat) = fun _ => 0 := by
  funext a; match a with | ⟨0, _⟩ => rfl | ⟨1, _⟩ => rfl
theorem hz0 : (![0, 0] : Fin S256x512.rank → Nat) = fun _ => 0 := by
  funext a; match a with | ⟨0, _⟩ => rfl | ⟨1, _⟩ => rfl

section
variable (c : Dev nD) (i : grid0.Coords) (arg1 : Memref sig .tc .vmem S256x512 .bf16) (harg1 : arg1.IsWhole) (arg2 : Memref sig .tc .vmem S10240x512 .bf16) (harg2 : arg2.IsWhole) (arg3 : Memref sig .tc .vmem S256x1 .i32) (harg3 : arg3.IsWhole) (arg4 : Memref sig .tc .vmem S256x1 .f32) (harg4 : arg4.IsWhole)

/-- The store that zeroes the block. -/
abbrev zeroStore : View.Piece (Elt F) S256x1 .f32 := ⟨Rect.unit ![0, 0] S256x1.size inb_S256x1_S256x1_0_0, k0_pay1⟩

/-- ONE TRIP'S STORE: the whole block, at the body's term of the chunk it loads and of the block as it finds it. -/
theorem trip_piece (v0 : Vec F S256x512 .bf16) (v2 : Vec F S256x1 .i32) (X : BufTy.Contents (Elt F) arg2.view.ty) (k : Fin k0_t1_loop.trips)
    (f : BufTy.Contents (Elt F) arg4.view.ty) :
    tripL_k0_t1 (F := F) Variants.none c none i arg1 harg1 arg2 harg2 arg3 harg3 arg4 harg4 v0 v2 X k f
      = [⟨Rect.unit ![0, 0] S256x1.size inb_S256x1_S256x1_0_0,
          k0_pay2 v0 v2 k
            (View.readAt (Elt F) arg2.view (Rect.unit (s := S10240x512) (k0_off1 k) S2048x512.size (k0_off1_inb k)).toLoadRect X)
            (View.readAt (Elt F) arg4.view (Rect.unit (s := S256x1) ![0, 0] S256x1.size inb_S256x1_S256x1_0_0).toLoadRect f)⟩] := by
  unfold tripL_k0_t1 trip_k0_t1
  rfl

/-- The stores of the trips before `k`, latest first, over the zeroing store. -/
abbrev stores (v0 : Vec F S256x512 .bf16) (v2 : Vec F S256x1 .i32) (X : BufTy.Contents (Elt F) arg2.view.ty) (k : ℕ) : List (View.Piece (Elt F) S256x1 .f32) :=
  pb_k0_t1 (F := F) Variants.none c none i arg1 harg1 arg2 harg2 arg3 harg3 arg4 harg4 v0 v2 X
    (arg4.view.writes (Elt F) arg4.view.junk [zeroStore (F := F)]) k ++ [zeroStore (F := F)]

/-- What those stores leave is the recursion's value: at the start the zero block, and after trip `k` the body's term of
    what the trips before left. -/
theorem canon_stores (x0 : Vec F S256x512 .bf16) (x1 : Vec F S10240x512 .bf16) (x2 : Vec F S256x1 .i32) :
    ∀ k : ℕ, k ≤ k0_t1_loop.trips →
      View.canon (stores c i arg1 harg1 arg2 harg2 arg3 harg3 arg4 harg4 x0 x2 (harg2.unread x1) k) = acc x0 x1 x2 k
  | 0, _ => by
    show View.canon ([] ++ [zeroStore (F := F)]) = k0_pay1
    exact View.canon_unit_zero hz _ _
  | k + 1, hk => by
    have ih := canon_stores x0 x1 x2 k (Nat.le_of_succ_le hk)
    have hlt : k < k0_t1_loop.trips := hk
    have e := pb_k0_t1_succ (F := F) Variants.none c none i arg1 harg1 arg2 harg2 arg3 harg3 arg4 harg4 x0 x2 (harg2.unread x1)
      (arg4.view.writes (Elt F) arg4.view.junk [zeroStore (F := F)]) ⟨k, hlt⟩
    show View.canon (pb_k0_t1 (F := F) Variants.none c none i arg1 harg1 arg2 harg2 arg3 harg3 arg4 harg4 x0 x2 (harg2.unread x1)
      (arg4.view.writes (Elt F) arg4.view.junk [zeroStore (F := F)]) ((⟨k, hlt⟩ : Fin k0_t1_loop.trips).val + 1) ++ [zeroStore (F := F)]) = _
    rw [e, trip_piece, ← View.writes_append, List.append_assoc, List.singleton_append, View.canon_cons_unit_zero hz]
    rw [acc_succ x0 x1 x2 ⟨k, hlt⟩]
    congr 1
    · rw [View.readAt_eq_ld, harg2.read_unread]; rfl
    · rw [View.readAt_writes_junk_eq_canon]
      show View.ld (View.canon _) (Rect.unit (s := S256x1) ![0, 0] S256x1.size inb_S256x1_S256x1_0_0) = _
      rw [View.ld_unit_zero hz]; exact ih

/-- THE BLOCK A POINT LEAVES is the recursion after all five chunks, whatever staging memrefs the body runs on. -/
theorem out_eq (x0 : Vec F S256x512 .bf16) (x1 : Vec F S10240x512 .bf16) (x2 : Vec F S256x1 .i32) :
    out0_A_3 c i arg1 harg1 arg2 harg2 arg3 harg3 arg4 harg4 x0 x1 x2 = acc x0 x1 x2 k0_t1_loop.trips := by
  unfold out0_A_3
  rw [View.read_writes_eq_canon _ _ _ (cover0_A_3 c i arg1 harg1 arg2 harg2 arg3 harg3 arg4 harg4 x0 x1 x2)]
  unfold kernelRun0_A
  dsimp only
  sl_unfold_words
  simp only [View.readAt_eq_ld, harg1.read_unread, harg3.read_unread, View.ld_unit_zero (S := S256x512) hz0, View.ld_unit_zero (S := S256x1) hz]
  exact canon_stores c i arg1 harg1 arg2 harg2 arg3 harg3 arg4 harg4 x0 x1 x2 k0_t1_loop.trips le_rfl

end

end Cert.KernelIdeal.BlockRun

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.LibColumnCast.lean ====
/-
  A vector laid out as one column: an `[a]` array cast to `[a, 1]` read at an entry.  (The row form, `[a]` to
  `[1, a]`, is the library's `shapeCast_a_1a_apply`; the two row-major positions agree because the unit axis
  contributes nothing.)
-/
import Idealize.ShloMosaic.Lib.Pipeline.Value
import Idealize.ShloMosaic.Lib.ValueIdx
import Idealize.ShloMosaic.Lib.ValueLayout

namespace Idealize.ShloMosaic.ColumnCast

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnCast
-- ==== Proof.PayloadIdeal.lean ====
/-
  One chunk's step of the body, read at a row, over the extended reals.

  For a feature block `x0 : [256, 512]`, a label block `x2 : [256, 1]`, a chunk `v12 : [2048, 512]` of centre rows whose
  first row has global index `o` (the word `k0_mult1 k = 2048·k`), and the block `a : [256, 1]` as the step finds it, the
  step leaves at row `p`

      a[p] + Σ_{l < 2048} (if the row's label is l + o and l + o < 10000 then Σ_d x0[p,d]·v12[l,d] else 0):

  the score matrix is the product of the features with the chunk's rows (into a zero accumulator, so a plain sum over the
  512 coordinates), the selection keeps the one column whose global index is the row's label, and the lane sum adds the
  kept entries.
-/
import proofs.«402682_j45681272160610_3_alg».proof.Proof.Gen.KernelIdeal.Skeleton
import proofs.«402682_j45681272160610_3_alg».proof.Proof.LibIx2
import proofs.«402682_j45681272160610_3_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadIdeal

open Cert.KernelIdeal Cert.KernelIdeal.Gen
open Idealize.ShloMosaic Idealize.ShloMosaic.ValueIdx

/-! ## The product's operand indices -/

theorem lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- The score of row `p` against the chunk's row `l`: the sum over the 512 coordinates. -/
theorem score_apply (x0 : FVec Ideal S256x512 .f32) (v12 : FVec Ideal S2048x512 .f32) (p : Fin 256) (l : Fin 2048) :
    matmul dot_S256x512_S2048x512_S256x2048_1_1_0_0_n_n none x0 v12 (constant S256x2048 .f32 0x00000000#32) (ix2 p l)
      = ∑ d : Fin 512, x0 (ix2 p d) * v12 (ix2 l d) :=
  Cert.LibIx2.matmul_zero_ix2 dot_S256x512_S2048x512_S256x2048_1_1_0_0_n_n rfl rfl x0 v12 p l (fun d => ix2 p d) (fun d => ix2 l d)
    (fun k q hq => funext fun a => Fin.ext (by
      match a with
      | ⟨0, _⟩ => exact lhs_0 _ _
      | ⟨1, _⟩ => exact (lhs_1 _ _).trans hq))
    (fun k q hq => funext fun a => Fin.ext (by
      match a with
      | ⟨0, _⟩ => exact rhs_0 _ _
      | ⟨1, _⟩ => exact (rhs_1 _ _).trans hq))

/-! ## The selection -/

/-- The selection bit of a row whose label word is `w`, at lane `l` of a chunk whose first global column is the word `o`:
    the label is that column, and that column is a real class. -/
def hit (w o : BitVec 32) (l : Fin 2048) : BitVec 1 :=
  IntOp.andi (IntOp.cmpi .eq w (IntOp.addi (BitVec.ofNat 32 l.val) o)) (IntOp.cmpi .slt (IntOp.addi (BitVec.ofNat 32 l.val) o) 10000#32)

/-- The masked score matrix of one chunk. -/
def masked (x0 : FVec Ideal S256x512 .bf16) (x2 : IVec S256x1 32) (o : BitVec 32) (v12 : FVec Ideal S2048x512 .bf16) : FVec Ideal S256x2048 .f32 :=
  select
    (andi
      (cmpi .eq (broadcastTo S256x2048 (shapeCast S256x1 x2 shapeCasts_S256x1_S256x1) broadcasts_S256x1_S256x2048)
        (addi (iota .tc S256x2048 32 [1] iota_S256x2048_d1_w32) (broadcast S256x2048 o)))
      (cmpi .slt (addi (iota .tc S256x2048 32 [1] iota_S256x2048_d1_w32) (broadcast S256x2048 o)) (broadcast S256x2048 10000#32)))
    (matmul dot_S256x512_S2048x512_S256x2048_1_1_0_0_n_n none (shapeCast S256x512 x0 shapeCasts_S256x512_S256x512)
      (shapeCast S2048x512 v12 shapeCasts_S2048x512_S2048x512) (constant S256x2048 .f32 0x00000000#32))
    (broadcast S256x2048 (Scalar.ofBits (F := Ideal) .f32 0x00000000#32))

theorem masked_apply (x0 : FVec Ideal S256x512 .bf16) (x2 : IVec S256x1 32) (o : BitVec 32) (v12 : FVec Ideal S2048x512 .bf16)
    (p : Fin 256) (l : Fin 2048) :
    masked x0 x2 o v12 (ix2 p l)
      = Scalar.select (hit (x2 (ix2 p (0 : Fin 1))) o l) (∑ d : Fin 512, x0 (ix2 p d) * v12 (ix2 l d)) (Ideal.ofBits .f32 0x00000000#32) := by
  unfold masked
  rw [select_apply, shapeCast_self, shapeCast_self, shapeCast_self]
  have hs := score_apply x0 v12 p l
  have hb : broadcastTo S256x2048 x2 broadcasts_S256x1_S256x2048 (ix2 p l) = x2 (ix2 p (0 : Fin 1)) :=
    Cert.LibIx2.broadcastTo_a1_ab_apply x2 broadcasts_S256x1_S256x2048 p l
  have hi : iota .tc S256x2048 32 [1] iota_S256x2048_d1_w32 (ix2 p l) = BitVec.ofNat 32 l.val := by
    show BitVec.ofNat 32 (0 * 2048 + l.val) = _
    rw [Nat.zero_mul, Nat.zero_add]
  have hm : (andi
      (cmpi .eq (broadcastTo S256x2048 x2 broadcasts_S256x1_S256x2048)
        (addi (iota .tc S256x2048 32 [1] iota_S256x2048_d1_w32) (broadcast S256x2048 o)))
      (cmpi .slt (addi (iota .tc S256x2048 32 [1] iota_S256x2048_d1_w32) (broadcast S256x2048 o)) (broadcast S256x2048 10000#32))) (ix2 p l)
      = hit (x2 (ix2 p (0 : Fin 1))) o l := by
    show IntOp.andi (IntOp.cmpi .eq (broadcastTo S256x2048 x2 broadcasts_S256x1_S256x2048 (ix2 p l))
        (IntOp.addi (iota .tc S256x2048 32 [1] iota_S256x2048_d1_w32 (ix2 p l)) o))
      (IntOp.cmpi .slt (IntOp.addi (iota .tc S256x2048 32 [1] iota_S256x2048_d1_w32 (ix2 p l)) o) 10000#32) = _
    rw [hb, hi]; rfl
  rw [hm]
  exact congrArg (fun s => Scalar.select (hit (x2 (ix2 p (0 : Fin 1))) o l) s (Ideal.ofBits .f32 0x00000000#32)) hs

/-! ## The step -/

/-- The lane sum of a [256, 2048] array at row `p`. -/
theorem rowsum_apply (src : FVec Ideal S256x2048 .f32) (hφ : FKind.Formats .f32)
    (hacc : (0x00000000#32 : BitVec 32) = FKind.add.neutral .f32 hφ) (p : Fin 256) :
    multiReduction .add [1] S256 src 0x00000000#32 reduces_S256x2048_S256 hφ hacc (ix1 p) = ∑ l : Fin 2048, src (ix2 p l) := by
  refine (Ideal.multiReduction_add_single src 0x00000000#32 reduces_S256x2048_S256 hφ hacc (ix1 p)).trans ?_
  refine Finset.sum_congr rfl fun l _ => congrArg src ?_
  funext a
  match a with
  | ⟨0, _⟩ => exact Fin.ext rfl
  | ⟨1, _⟩ => exact Fin.ext rfl

/-- The body's step is the block it finds plus the lane sums of the masked scores. -/
theorem pay2_eq (x0 : FVec Ideal S256x512 .bf16) (x2 : IVec S256x1 32) (k : Fin k0_t1_loop.trips) (v12 : FVec Ideal S2048x512 .bf16)
    (a : FVec Ideal S256x1 .f32) :
    k0_pay2 (F := Ideal) x0 x2 k v12 a
      = addf (shapeCast S256x1 a shapeCasts_S256x1_S256x1)
          (shapeCast S256x1 (multiReduction .add [1] S256 (masked x0 x2 (k0_mult1 k) v12) 0x00000000#32 reduces_S256x2048_S256 (.inl rfl) rfl)
            shapeCasts_S256_S256x1) := rfl

/-- ONE STEP AT A ROW. -/
theorem pay2_apply (x0 : FVec Ideal S256x512 .bf16) (x2 : IVec S256x1 32) (k : Fin k0_t1_loop.trips) (v12 : FVec Ideal S2048x512 .bf16)
    (a : FVec Ideal S256x1 .f32) (p : Fin 256) :
    k0_pay2 (F := Ideal) x0 x2 k v12 a (ix2 p (0 : Fin 1))
      = a (ix2 p (0 : Fin 1)) + ∑ l : Fin 2048,
          Scalar.select (hit (x2 (ix2 p (0 : Fin 1))) (k0_mult1 k) l) (∑ d : Fin 512, x0 (ix2 p d) * v12 (ix2 l d)) (Ideal.ofBits .f32 0x00000000#32) := by
  rw [pay2_eq, addf_apply, shapeCast_self, Idealize.ShloMosaic.ColumnCast.shapeCast_a_a1_apply]
  refine congrArg (fun s => a (ix2 p (0 : Fin 1)) + s) ((rowsum_apply _ _ _ p).trans ?_)
  exact Finset.sum_congr rfl fun l _ => masked_apply x0 x2 (k0_mult1 k) v12 p l

/-- The zeroing store's value at a row. -/
theorem pay1_apply (p : Fin 256) : k0_pay1 (F := Ideal) (ix2 p (0 : Fin 1)) = Ideal.ofBits .f32 0x00000000#32 := rfl

end Cert.KernelIdeal.PayloadIdeal

end
-- ==== Proof.BlockIdeal.lean ====
/-
  The block a grid point leaves, at a row, over the extended reals: the row's features against the ONE centre row its label
  names.

  Row `p` of the label block holds a class `y < 10000`. Chunk `k` covers the global columns `2048·k … 2048·k + 2047`; its
  selection keeps lane `l` exactly when `y = l + 2048·k` (such a column is below 10000 by itself). So the chunk that holds
  column `y` adds `Σ_d x0[p,d] · x1[y,d]` to the row and every other chunk adds zero: after the chunks before `k` the row
  holds that sum if `y < 2048·k` and zero otherwise, and after all five (`y < 10240`) it holds the sum.
-/
import proofs.«402682_j45681272160610_3_alg».proof.Proof.BlockRun
import proofs.«402682_j45681272160610_3_alg».proof.Proof.PayloadIdeal
import Idealize.ShloMosaic.Lib.StableHlo.Predicate
import Idealize.ShloMosaic.Lib.Affine

noncomputable section

namespace Cert.KernelIdeal.BlockIdeal

open Cert.KernelIdeal Cert.KernelIdeal.Gen Cert.KernelIdeal.BlockRun Cert.KernelIdeal.PayloadIdeal
open Idealize.ShloMosaic Idealize.ShloMosaic.ValueIdx Idealize.ShloMosaic.StableHlo.Predicate

/-- The loop runs five trips, and trip `k`'s column offset is the word `2048·k`. -/
theorem trips_eq : k0_t1_loop.trips = 5 := by decide +kernel
theorem mult_eq : ∀ k : Fin k0_t1_loop.trips, k0_mult1 k = BitVec.ofNat 32 (2048 * k.val) := by decide +kernel

/-- WHEN A LANE IS KEPT: the row's class is the lane's global column. -/
theorem hit_iff (w : BitVec 32) (hw : w.toNat < 10000) (k : ℕ) (hk : k < 5) (l : Fin 2048) :
    hit w (BitVec.ofNat 32 (2048 * k)) l = 1#1 ↔ w.toNat = l.val + 2048 * k := by
  have hl := l.isLt
  have hs : IntOp.addi (BitVec.ofNat 32 l.val) (BitVec.ofNat 32 (2048 * k)) = BitVec.ofNat 32 (l.val + 2048 * k) := by
    unfold IntOp.addi; rw [← BitVec.ofNat_add]
  have hn : (BitVec.ofNat 32 (l.val + 2048 * k)).toNat = l.val + 2048 * k := by
    rw [BitVec.toNat_ofNat]; exact Nat.mod_eq_of_lt (by omega)
  unfold hit
  rw [hs, IntOp.andi_eq_one, cmpi_eq_iff, slt_iff_toNat (by rw [hn]; omega) (by decide), hn]
  constructor
  · rintro ⟨e, _⟩; rw [e, hn]
  · intro e
    refine ⟨BitVec.eq_of_toNat_eq (by rw [hn]; exact e), ?_⟩
    show l.val + 2048 * k < 10000
    omega

/-- Row `l` of chunk `k` is row `2048·k + l` of the centres buffer. -/
theorem chunk_apply (x1 : FVec Ideal S10240x512 .bf16) (k : Fin k0_t1_loop.trips) (l : Fin 2048) (d : Fin 512)
    (h : 2048 * k.val + l.val < 10240) :
    chunk (F := Ideal) x1 k (ix2 l d) = x1 (ix2 ⟨2048 * k.val + l.val, h⟩ d) := by
  unfold chunk
  show x1 ((Rect.unit (s := S10240x512) (k0_off1 k) S2048x512.size (k0_off1_inb k)).idx (ix2 l d)) = _
  refine congrArg x1 (funext fun a => Fin.ext ?_)
  match a with
  | ⟨0, _⟩ =>
    show k0_off1 k 0 + 1 * l.val = 2048 * k.val + l.val
    rw [k0_off1_eq k]
    show 2048 * k.val + 1 * l.val = _
    omega
  | ⟨1, _⟩ =>
    show k0_off1 k 1 + 1 * d.val = d.val
    rw [k0_off1_eq k]
    show 0 + 1 * d.val = _
    omega

section
variable (x0 : FVec Ideal S256x512 .bf16) (x1 : FVec Ideal S10240x512 .bf16) (x2 : IVec S256x1 32) (p : Fin 256)

/-- The row's features against centre row `j` of the buffer. -/
def rowval (j : Fin 10240) : EReal := ∑ d : Fin 512, x0 (ix2 p d) * x1 (ix2 j d)

/-- What chunk `k` adds to row `p`: the row's value if the class lies in the chunk, else zero. -/
theorem chunk_sum (hy : (x2 (ix2 p (0 : Fin 1))).toNat < 10000) (k : Fin k0_t1_loop.trips) :
    (∑ l : Fin 2048, Scalar.select (hit (x2 (ix2 p (0 : Fin 1))) (k0_mult1 k) l)
        (∑ d : Fin 512, x0 (ix2 p d) * chunk (F := Ideal) x1 k (ix2 l d)) (Ideal.ofBits .f32 0x00000000#32))
      = if 2048 * k.val ≤ (x2 (ix2 p (0 : Fin 1))).toNat ∧ (x2 (ix2 p (0 : Fin 1))).toNat < 2048 * (k.val + 1)
        then rowval x0 x1 p ⟨(x2 (ix2 p (0 : Fin 1))).toNat, by omega⟩ else 0 := by
  have hk5 : k.val < 5 := by have h5 := trips_eq; have := k.isLt; omega
  rw [mult_eq k, Ideal.ofBits_zero_f32]
  split
  · next hin =>
    obtain ⟨h1, h2⟩ := hin
    have hl : (x2 (ix2 p (0 : Fin 1))).toNat - 2048 * k.val < 2048 := by omega
    rw [Finset.sum_eq_single (⟨(x2 (ix2 p (0 : Fin 1))).toNat - 2048 * k.val, hl⟩ : Fin 2048)]
    · have hh : hit (x2 (ix2 p (0 : Fin 1))) (BitVec.ofNat 32 (2048 * k.val)) ⟨(x2 (ix2 p (0 : Fin 1))).toNat - 2048 * k.val, hl⟩ = 1#1 :=
        (hit_iff _ hy k.val hk5 _).mpr (by show _ = (x2 (ix2 p (0 : Fin 1))).toNat - 2048 * k.val + 2048 * k.val; omega)
      unfold Scalar.select
      refine (if_pos hh).trans ?_
      unfold rowval
      refine Finset.sum_congr rfl fun d _ => congrArg (fun z => x0 (ix2 p d) * z) ?_
      rw [chunk_apply x1 k _ d (by show 2048 * k.val + ((x2 (ix2 p (0 : Fin 1))).toNat - 2048 * k.val) < 10240; omega)]
      refine congrArg x1 (congrArg (fun j => ix2 j d) (Fin.ext ?_))
      show 2048 * k.val + ((x2 (ix2 p (0 : Fin 1))).toNat - 2048 * k.val) = (x2 (ix2 p (0 : Fin 1))).toNat
      omega
    · intro l _ hne
      have hh : ¬ hit (x2 (ix2 p (0 : Fin 1))) (BitVec.ofNat 32 (2048 * k.val)) l = 1#1 := fun e => by
        have := (hit_iff _ hy k.val hk5 l).mp e
        exact hne (Fin.ext (by show l.val = (x2 (ix2 p (0 : Fin 1))).toNat - 2048 * k.val; omega))
      unfold Scalar.select
      exact if_neg hh
    · intro h; exact absurd (Finset.mem_univ _) h
  · next hout =>
    refine Finset.sum_eq_zero fun l _ => ?_
    have hh : ¬ hit (x2 (ix2 p (0 : Fin 1))) (BitVec.ofNat 32 (2048 * k.val)) l = 1#1 := fun e => by
      have := (hit_iff _ hy k.val hk5 l).mp e
      have := l.isLt
      exact hout ⟨by omega, by omega⟩
    unfold Scalar.select
    exact if_neg hh

/-- After the chunks before `k` the row holds its value if its class lies before column `2048·k`, and zero otherwise. -/
theorem acc_apply_upto (hy : (x2 (ix2 p (0 : Fin 1))).toNat < 10000) :
    ∀ k : ℕ, k ≤ k0_t1_loop.trips →
      acc (F := Ideal) x0 x1 x2 k (ix2 p (0 : Fin 1))
        = if (x2 (ix2 p (0 : Fin 1))).toNat < 2048 * k then rowval x0 x1 p ⟨(x2 (ix2 p (0 : Fin 1))).toNat, by omega⟩ else 0
  | 0, _ => by
    rw [if_neg (by omega)]
    show k0_pay1 (F := Ideal) (ix2 p (0 : Fin 1)) = 0
    rw [pay1_apply, Ideal.ofBits_zero_f32]
  | k + 1, hk => by
    have ih := acc_apply_upto hy k (Nat.le_of_succ_le hk)
    have e := acc_succ (F := Ideal) x0 x1 x2 ⟨k, hk⟩
    show acc (F := Ideal) x0 x1 x2 ((⟨k, hk⟩ : Fin k0_t1_loop.trips).val + 1) (ix2 p (0 : Fin 1)) = _
    rw [e, pay2_apply, chunk_sum x0 x1 x2 p hy ⟨k, hk⟩, ih]
    show (if (x2 (ix2 p (0 : Fin 1))).toNat < 2048 * k then _ else (0 : EReal))
        + (if 2048 * k ≤ (x2 (ix2 p (0 : Fin 1))).toNat ∧ (x2 (ix2 p (0 : Fin 1))).toNat < 2048 * (k + 1) then _ else (0 : EReal)) = _
    by_cases h1 : (x2 (ix2 p (0 : Fin 1))).toNat < 2048 * k
    · rw [if_pos h1, if_neg (by omega), if_pos (by omega), add_zero]
    · by_cases h2 : (x2 (ix2 p (0 : Fin 1))).toNat < 2048 * (k + 1)
      · rw [if_neg h1, if_pos ⟨by omega, h2⟩, if_pos h2, zero_add]
      · rw [if_neg h1, if_neg (by omega), if_neg h2, add_zero]

/-- THE BLOCK AT A ROW: the row's features against the centre row its label names. -/
theorem acc_apply (hy : (x2 (ix2 p (0 : Fin 1))).toNat < 10000) :
    acc (F := Ideal) x0 x1 x2 k0_t1_loop.trips (ix2 p (0 : Fin 1))
      = ∑ d : Fin 512, x0 (ix2 p d) * x1 (ix2 (⟨(x2 (ix2 p (0 : Fin 1))).toNat, by omega⟩ : Fin 10240) d) := by
  rw [acc_apply_upto x0 x1 x2 p hy _ le_rfl, if_pos (by rw [trips_eq]; omega)]
  rfl

end

end Cert.KernelIdeal.BlockIdeal

end
-- ==== Proof.Cover.lean ====
/-
  From the blocks to the region's [8192, 1] output array, over the extended reals.

  Grid point `t` reads feature rows `256·t … 256·t + 255` and the same rows of the label column, the whole padded centres
  buffer, and writes rows `256·t … 256·t + 255` of the output. Its block at row `p` is the row's features against the
  padded centre row its label names; so the output array is, at row `r`, the features' row `r` against the padded centre
  row that row `r`'s label names — one function of the three operand arrays, of which every point writes its own 256 rows,
  and the 32 points cover all 8192 rows.
-/
import proofs.«402682_j45681272160610_3_alg».proof.Proof.BlockIdeal
import Idealize.ShloMosaic.Lib.Pipeline.Value
import Idealize.ShloMosaic.Lib.ValueIdx

set_option maxRecDepth 16384

noncomputable section

namespace Cert.KernelIdeal.Cover

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Row `r` of the output: the features' row against the padded centre row the label column names there (the class folded
    into the buffer's 10240 rows: for a class below 10000 it is the class). -/
def rowG (a0 : FVec Ideal S8192x512 .bf16) (a1 : FVec Ideal S10240x512 .bf16) (a2 : IVec S8192x1 32) (r : Fin 8192) : EReal :=
  ∑ d : Fin 512, a0 (ix2 r d) * a1 (ix2 (⟨(a2 (ix2 r (0 : Fin 1))).toNat % 10240, Nat.mod_lt _ (by norm_num)⟩ : Fin 10240) d)

/-- The output array as one function of the three operand arrays. -/
def G19 (a0 : FVec Ideal S8192x512 .bf16) (a1 : FVec Ideal S10240x512 .bf16) (a2 : IVec S8192x1 32) : FVec Ideal S8192x1 .f32 :=
  fun i => rowG a0 a1 a2 ⟨(i 0).val, idx2_lt0 i⟩

variable (m : (ℓ : Loc nD τ sig) → Buf (Elt Ideal) ℓ)

/-- The operand arrays as the region finds them, and a point's blocks of them, at their literal types. -/
abbrev A0 (c : Dev nD) : FVec Ideal S8192x512 .bf16 := V m c main_v0
abbrev A1 (c : Dev nD) : FVec Ideal S10240x512 .bf16 := V m c main_v18
abbrev A2 (c : Dev nD) : IVec S8192x1 32 := V m c main_v17
abbrev xblk (c : Dev nD) (t : Fin cfg0.N) : FVec Ideal S256x512 .bf16 := iblk m c 0 t
abbrev cblk (c : Dev nD) (t : Fin cfg0.N) : FVec Ideal S10240x512 .bf16 := iblk m c 1 t
abbrev lblk (c : Dev nD) (t : Fin cfg0.N) : IVec S256x1 32 := iblk m c 2 t

/-- The printed index maps over the grid: the features', the labels' and the output's blocks move with the point along
    the rows; the centres' block is the whole buffer. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 32 := by have h1 : t.val < grid0.N := t.isLt; have h := N_0; omega

/-- A point's feature block, label block and centres block, read where they sit in their arrays. -/
theorem xblk_apply (c : Dev nD) (t : Fin cfg0.N) (p : Fin 256) (d : Fin 512) (h : 256 * t.val + p.val < 8192) :
    xblk m c t (ix2 p d) = A0 m c (ix2 ⟨256 * t.val + p.val, h⟩ d) := by
  show V m c main_v0 (((cfg0.win 0).blk t).view.emb (ix2 p d)) = V m c main_v0 (ix2 ⟨256 * t.val + p.val, h⟩ d)
  refine congrArg (V m c main_v0) (funext fun a => Fin.ext ?_)
  obtain ⟨e0, e1, -⟩ := idx_facts t
  match a with
  | ⟨0, _⟩ => show win0_0.index t (0 : Fin 2) * 256 + 1 * p.val = 256 * t.val + p.val; omega
  | ⟨1, _⟩ => show win0_0.index t (1 : Fin 2) * 512 + 1 * d.val = d.val; omega

theorem lblk_apply (c : Dev nD) (t : Fin cfg0.N) (p : Fin 256) (h : 256 * t.val + p.val < 8192) :
    lblk m c t (ix2 p (0 : Fin 1)) = A2 m c (ix2 ⟨256 * t.val + p.val, h⟩ (0 : Fin 1)) := by
  show V m c main_v17 (((cfg0.win 2).blk t).view.emb (ix2 p (0 : Fin 1))) = V m c main_v17 (ix2 ⟨256 * t.val + p.val, h⟩ (0 : Fin 1))
  refine congrArg (V m c main_v17) (funext fun a => Fin.ext ?_)
  obtain ⟨-, -, -, -, e4, e5, -⟩ := idx_facts t
  match a with
  | ⟨0, _⟩ => show win0_2.index t (0 : Fin 2) * 256 + 1 * p.val = 256 * t.val + p.val; omega
  | ⟨1, _⟩ => show win0_2.index t (1 : Fin 2) * 1 + 1 * 0 = 0; omega

theorem cblk_apply (c : Dev nD) (t : Fin cfg0.N) (j : Fin 10240) (d : Fin 512) :
    cblk m c t (ix2 j d) = A1 m c (ix2 j d) := by
  show V m c main_v18 (((cfg0.win 1).blk t).view.emb (ix2 j d)) = V m c main_v18 (ix2 j d)
  refine congrArg (V m c main_v18) (funext fun a => Fin.ext ?_)
  obtain ⟨-, -, e2, e3, -⟩ := idx_facts t
  match a with
  | ⟨0, _⟩ => show win0_1.index t (0 : Fin 2) * 10240 + 1 * j.val = j.val; omega
  | ⟨1, _⟩ => show win0_1.index t (1 : Fin 2) * 512 + 1 * d.val = d.val; omega

section
variable (c : Dev nD) (hA2 : ∀ r : Fin 8192, (A2 m c (ix2 r (0 : Fin 1))).toNat < 10000)
include hA2

/-- WHAT POINT `t` WRITES BACK is block `t` of the one function of the operand arrays. -/
theorem flushed_eq (t : Fin cfg0.N) :
    (dats m 0 c).flushed 3 t = ((cfg0.win 3).blk t).view.read (Elt Ideal) (G19 (A0 m c) (A1 m c) (A2 m c)) := by
  show (cfg0.win 3).cut (grid0.coords t) ((dats m 0 c).after 3 t) = _
  rw [after0_3]
  unfold outsAt0
  rw [BlockRun.out_eq]
  have ht := t_lt t
  obtain ⟨-, -, -, -, -, -, e6, e7⟩ := idx_facts t
  funext j
  obtain ⟨p, rfl⟩ : ∃ p : Fin 256, j = ix2 p (0 : Fin 1) :=
    ⟨⟨(j 0).val, idx2_lt0 j⟩, funext fun a => by
      match a with
      | ⟨0, _⟩ => rfl
      | ⟨1, _⟩ => exact Fin.ext (by have := idx2_lt1 j; show (j 1).val = 0; omega)⟩
  have hr : 256 * t.val + p.val < 8192 := by have := p.isLt; omega
  have hy : (lblk m c t (ix2 p (0 : Fin 1))).toNat < 10000 := by rw [lblk_apply m c t p hr]; exact hA2 _
  show BlockRun.acc (F := Ideal) (xblk m c t) (cblk m c t) (lblk m c t) k0_t1_loop.trips (ix2 p (0 : Fin 1))
    = G19 (A0 m c) (A1 m c) (A2 m c) (((cfg0.win 3).blk t).view.emb (ix2 p (0 : Fin 1)))
  rw [BlockIdeal.acc_apply (xblk m c t) (cblk m c t) (lblk m c t) p hy]
  have hemb : (((cfg0.win 3).blk t).view.emb (ix2 p (0 : Fin 1)) 0).val = 256 * t.val + p.val := by
    show win0_3.index t (0 : Fin 2) * 256 + 1 * p.val = 256 * t.val + p.val; omega
  show _ = rowG (A0 m c) (A1 m c) (A2 m c) ⟨(((cfg0.win 3).blk t).view.emb (ix2 p (0 : Fin 1)) 0).val, _⟩
  have hrow : (⟨(((cfg0.win 3).blk t).view.emb (ix2 p (0 : Fin 1)) 0).val, idx2_lt0 _⟩ : Fin 8192) = ⟨256 * t.val + p.val, hr⟩ := Fin.ext hemb
  rw [hrow]
  unfold rowG
  refine Finset.sum_congr rfl fun d _ => ?_
  rw [xblk_apply m c t p d hr, cblk_apply]
  refine congrArg (fun z => A0 m c (ix2 ⟨256 * t.val + p.val, hr⟩ d) * A1 m c (ix2 z d)) (Fin.ext ?_)
  show (lblk m c t (ix2 p (0 : Fin 1))).toNat = (A2 m c (ix2 ⟨256 * t.val + p.val, hr⟩ (0 : Fin 1))).toNat % 10240
  rw [lblk_apply m c t p hr]
  have := hA2 ⟨256 * t.val + p.val, hr⟩
  exact (Nat.mod_eq_of_lt (by omega)).symm

/-- An index of the output array is in point `t`'s block iff its row is one of the point's 256 rows. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v19).slice (win0_3.rect t)).set ↔ _
  rw [View.set_slice_whole, Rect.mem_set_unit]
  exact Iff.rfl

/-- THE OUTPUT ARRAY after the run. -/
theorem final : (dats m 0 c).arrAt 3 cfg0.N = G19 (A0 m c) (A1 m c) (A2 m c) := by
  refine (dats m 0 c).arrAt_eq_of_cover 3 _ (fun t _ => flushed_eq m c hA2 t) fun i => ?_
  have hi0 : (i 0).val < 8192 := idx2_lt0 i
  have hi1 : (i 1).val < 1 := idx2_lt1 i
  have hN := N_0
  refine ⟨⟨(i 0).val / 256, by show (i 0).val / 256 < grid0.N; omega⟩, flush0_3 _, ?_⟩
  rw [mem_blk m c hA2]
  obtain ⟨-, -, -, -, -, -, e6, e7⟩ := idx_facts ⟨(i 0).val / 256, by show (i 0).val / 256 < grid0.N; omega⟩
  intro a
  match a with
  | ⟨0, _⟩ =>
    show win0_3.index _ (0 : Fin 2) * 256 ≤ (i 0).val ∧ (i 0).val < win0_3.index _ (0 : Fin 2) * 256 + 256
    rw [e6]; show (i 0).val / 256 * 256 ≤ (i 0).val ∧ (i 0).val < (i 0).val / 256 * 256 + 256; omega
  | ⟨1, _⟩ =>
    show win0_3.index _ (1 : Fin 2) * 1 ≤ (i 1).val ∧ (i 1).val < win0_3.index _ (1 : Fin 2) * 1 + 1
    rw [e7]; omega

end

end Cert.KernelIdeal.Cover

end
-- ==== Proof.KernelValue.lean ====
/-
  The idealized kernel program's result: with every label a class below 10000 it ends at
  ((Σ_i Σ_d f[i,d]² + Σ_i csq c (lab y i)) − 2 · Σ_i rowdot f c i (lab y i)) / 8192 of its arguments, which end unchanged.

  The result buffer is the last lines applied to the two host scalars and to the region's output array; that array is, row
  by row, the features' row against the padded centre row the label column names; the label column holds the labels, a
  padded row below 10000 is the centre row, and the operand formats do not change a value.
-/
import proofs.«402682_j45681272160610_3_alg».proof.Proof.HostIdeal
import proofs.«402682_j45681272160610_3_alg».proof.Proof.HostTail
import proofs.«402682_j45681272160610_3_alg».proof.Proof.Cover

set_option maxRecDepth 16384

noncomputable section

namespace Cert.KernelIdeal.KernelValue

open Cert.KernelIdeal Cert.KernelIdeal.Gen Cert.KernelIdeal.HostSide Cert.KernelIdeal.HostIdeal Cert.Loss
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The arguments as launched, at their literal types. -/
abbrev f0 (c : Dev nD) : FVec Ideal S8192x512 .f32 := m ((c : Thread nD τ).loc main_arg0)
abbrev y0 (c : Dev nD) : IVec S8192 32 := m ((c : Thread nD τ).loc main_arg1)
abbrev c0 (c : Dev nD) : FVec Ideal S10000x512 .f32 := m ((c : Thread nD τ).loc main_arg2)

section
variable (c : Dev nD) (hlab : ∀ i : Fin 8192, (y0 m c (ix1 i)).toNat < 10000)
include hlab

/-- The label column the region finds holds classes below 10000. -/
theorem labels_ok (r : Fin 8192) : (Cover.A2 m c (ix2 r (0 : Fin 1))).toNat < 10000 := by
  show ((V m c main_v17 : S8192x1.Idx → BitVec 32) (ix2 r (0 : Fin 1))).toNat < 10000
  rw [V_v17, labCol_apply (y0 m c) hlab r]
  exact hlab r

/-- The region's output at row `i`: the row's features against the centre row its label names. -/
theorem rows_apply (i : Fin 8192) :
    (dats m 0 c).arrAt 3 cfg0.N (ix2 i (0 : Fin 1)) = rowdot (f0 m c) (c0 m c) i (lab (y0 m c) i) := by
  rw [Cover.final m c (labels_ok m c hlab)]
  show Cover.rowG (Cover.A0 m c) (Cover.A1 m c) (Cover.A2 m c) ⟨i.val, _⟩ = _
  unfold Cover.rowG rowdot
  have hi := hlab i
  have e2 : Cover.A2 m c (ix2 (⟨i.val, i.isLt⟩ : Fin 8192) (0 : Fin 1)) = y0 m c (ix1 i) := by
    show (V m c main_v17 : S8192x1.Idx → BitVec 32) (ix2 i (0 : Fin 1)) = _
    rw [V_v17]; exact labCol_apply (y0 m c) hlab i
  refine Finset.sum_congr rfl fun d _ => ?_
  have e0 : Cover.A0 m c (ix2 (⟨i.val, i.isLt⟩ : Fin 8192) d) = f0 m c (ix2 i d) := by
    show (V m c main_v0 : S8192x512.Idx → EReal) (ix2 i d) = _
    rw [V_v0]; rfl
  have hlt : (Cover.A2 m c (ix2 (⟨i.val, i.isLt⟩ : Fin 8192) (0 : Fin 1))).toNat % 10240 < 10000 := by
    rw [e2, Nat.mod_eq_of_lt (by omega)]; exact hi
  have e1 : Cover.A1 m c (ix2 (⟨(Cover.A2 m c (ix2 (⟨i.val, i.isLt⟩ : Fin 8192) (0 : Fin 1))).toNat % 10240, Nat.mod_lt _ (by norm_num)⟩ : Fin 10240) d)
      = c0 m c (ix2 (lab (y0 m c) i) d) := by
    show (V m c main_v18 : S10240x512.Idx → EReal) _ = _
    rw [V_v18, cenPad_apply (c0 m c) _ d hlt]
    refine congrArg (fun j => c0 m c (ix2 j d)) (Fin.ext ?_)
    show (Cover.A2 m c (ix2 (⟨i.val, i.isLt⟩ : Fin 8192) (0 : Fin 1))).toNat % 10240 = (y0 m c (ix1 i)).toNat % 10000
    rw [e2, Nat.mod_eq_of_lt (by omega), Nat.mod_eq_of_lt hi]
  exact (congrArg₂ (· * ·) e0 e1)

/-- THE RESULT BUFFER. -/
theorem result_eq :
    (Pipeline.afterTail₀ cfgs (dats m) 0 (V0 m) [hostOps1] c main_v24 : S_.Idx → EReal)
      = fun _ => lossOf (numK twoW (f0 m c) (y0 m c) (c0 m c)) := by
  rw [HostTail.tail_of_frame, HostIdeal.tail_eq, V_v5, V_v16, fsqAll_eq, csqSel_eq (y0 m c) (c0 m c) hlab]
  funext u
  unfold numK
  refine congrArg (fun s => lossOf (((∑ i : Fin 8192, ∑ d : Fin 512, f0 m c (ix2 i d) * f0 m c (ix2 i d)) + ∑ i : Fin 8192, csq (c0 m c) (lab (y0 m c) i)) - twoW * s)) ?_
  exact Finset.sum_congr rfl fun i _ => rows_apply m c hlab i

end

/-- THE RUN, READ: every weakly fair execution ends with the result at the kernel's numerator over 8192 and the arguments
    as launched. -/
theorem run (hlab : ∀ c : Dev nD, ∀ i : Fin 8192, (y0 m c (ix1 i)).toNat < 10000) :
    θ_run defs (onTc (τ := τ) (main (F := Ideal))) ⟨m, fun _ => 0, ρ⟩ (fun r => ∀ c : Dev nD,
      r.2.mem ((c.tc : Thread nD τ).loc main_v24) = (fun _ => lossOf (numK twoW (f0 m c) (y0 m c) (c0 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (result_eq m c (hlab c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference program's result as the plain sum of the specification: with every label word a class below 10000 the
  wrap of a negative label (adding 10000 to it) is the identity, the in-range test holds, the gather's clamp is the identity,
  so row i of the gathered column is the distance matrix at (i, label i); the distance matrix at (i, j) is
  (Σ_d f[i,d]² + Σ_d c[j,d]²) − 2 · Σ_d f[i,d]·c[j,d]; the result is the sum of those over the rows, divided by 8192.
-/
import proofs.«402682_j45681272160610_3_alg».proof.Proof.RefRead
import proofs.«402682_j45681272160610_3_alg».proof.Proof.Spec
import Idealize.ShloMosaic.Lib.StableHlo.Predicate
import Idealize.ShloMosaic.Lib.Affine
import Idealize.ShloMosaic.Lib.ValueIdx
import Idealize.ShloMosaic.PureOps.Reduce
import Idealize.ShloMosaic.PureOps.Ideal.Laws

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.ReadP

/-! ## One label word below 10000 -/

/-- It is not negative: the signed compare against 0 is false … -/
theorem word_slt (w : BitVec 32) (h : w.toNat < 10000) : IntOp.cmpi .slt w 0#32 = 0#1 := by
  refine eq_zero_of_ne_one fun e => ?_
  exact Nat.not_lt_zero _ ((Predicate.slt_iff_toNat (a := w) (b := 0#32) (by omega) (by decide)).1 e)

/-- … so the wrap keeps it … -/
theorem word_wrap (w a : BitVec 32) (h : w.toNat < 10000) :
    Scalar.select (IntOp.cmpi .slt w 0#32) a w = w := by
  rw [word_slt w h]; exact select_zero _ _

/-- … and it is inside the range of classes on both sides. -/
theorem word_sge (w : BitVec 32) (h : w.toNat < 10000) : IntOp.cmpi .sge w 0#32 = 1#1 :=
  (Predicate.sge_iff_toNat (a := w) (b := 0#32) (by omega) (by decide)).2 (Nat.zero_le _)

theorem word_sle (w : BitVec 32) (h : w.toNat < 10000) : IntOp.cmpi .sle w 9999#32 = 1#1 :=
  (Predicate.sle_iff_toNat (a := w) (b := 9999#32) (by omega) (by decide)).2 (by
    show w.toNat ≤ 9999; omega)

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-! ## The start indices and the in-range bit -/

section
variable (x1 : (⟨S8192, .i32⟩ : BufTy).Contents (Elt Ideal)) (hlab : ∀ i : Fin 8192, (x1 (ix1 i)).toNat < 10000)
include hlab

/-- The labels as a column. -/
theorem v14_at (j : S8192x1.Idx) : val_main_v14 (F := Ideal) x1 j = x1 (ix1 (j 0)) := by
  rw [val_main_v14_apply]
  exact congrArg x1 (funext fun a => match a with | ⟨0, _⟩ => rfl)

/-- The wrapped labels are the labels. -/
theorem v4_at (j : S8192x1.Idx) : val_main_call0_v4 (F := Ideal) x1 j = x1 (ix1 (j 0)) := by
  rw [val_main_call0_v4_apply, val_main_call0_v1_apply, val_main_call0_v0_apply, val_main_call0_c_apply, v14_at x1 hlab]
  exact word_wrap _ _ (hlab _)

/-- The start indices: row `k 0`'s label. -/
theorem v5_at (k : S8192x1x1.Idx) : val_main_call0_v5 (F := Ideal) x1 k = x1 (ix1 (k 0)) := by
  rw [val_main_call0_v5_apply, v4_at x1 hlab]
  refine congrArg (fun a => x1 (ix1 a)) (Fin.ext ?_)
  have h1 : (k 1).val < 1 := (k 1).isLt
  have h2 : (k 2).val < 1 := (k 2).isLt
  show (((k 0).val * 1 + (k 1).val) * 1 + (k 2).val) / 1 = (k 0).val
  omega

/-- Every start index passes the in-range test. -/
theorem v11_at (k : S8192x1x1.Idx) : val_main_call0_v11 (F := Ideal) x1 k = 1#1 := by
  rw [val_main_call0_v11_apply]
  refine IntOp.andi_eq_one.2 ⟨?_, ?_⟩
  · rw [val_main_call0_v7_apply, val_main_call0_v6_apply, val_main_call0_c_2_apply, v5_at x1 hlab]
    exact word_sge _ (hlab _)
  · rw [val_main_call0_v10_apply, val_main_call0_v9_apply, val_main_call0_v8_apply, val_main_call0_c_1_apply, v5_at x1 hlab]
    exact word_sle _ (hlab _)

/-- The in-range bit of every row, after the `and` over the index vector's one component. -/
theorem v12_at (j : S8192x1.Idx) : val_main_call0_v12 (F := Ideal) x1 j = 1#1 := by
  unfold val_main_call0_v12
  rw [Host.reduce_eq_foldl]
  exact foldl_andi_one _ _ fun n _ => v11_at x1 hlab n

end

/-! ## The gather -/

/-- The start-indices index a result row reads has that row as its first coordinate. -/
theorem siIdx_row (i : Fin 8192) (c : Fin gather_S8192x10000_S8192x1x1_S8192x1_n_1_0_0_1_2_11.startIndexMap.length) :
    gather_S8192x10000_S8192x1x1_S8192x1_n_1_0_0_1_2_11.siIdx (ix2 i (0 : Fin 1)) c 0 = i := by
  unfold GatherDims.siIdx
  rw [dif_neg (by decide)]
  exact Fin.ext rfl

section
variable (x0 : (⟨S8192x512, .f32⟩ : BufTy).Contents (Elt Ideal)) (x1 : (⟨S8192, .i32⟩ : BufTy).Contents (Elt Ideal))
  (x2 : (⟨S10000x512, .f32⟩ : BufTy).Contents (Elt Ideal)) (hlab : ∀ i : Fin 8192, (x1 (ix1 i)).toNat < 10000)
include hlab

/-- Row `i` of the gathered column is the distance matrix at (i, row i's label): on the batching axis the operand
    index is the result's row, on the collapsed axis it is the start index, which the clamp into [0, 9999] keeps. -/
theorem v13c_at (i : Fin 8192) :
    val_main_call0_v13 (F := Ideal) x0 x1 x2 (ix2 i (0 : Fin 1))
      = val_main_v13 (F := Ideal) x0 x2 (ix2 i (Cert.Loss.lab x1 i)) := by
  unfold val_main_call0_v13 Host.gather
  refine congrArg (val_main_v13 (F := Ideal) x0 x2) (funext fun a => Fin.ext ?_)
  match a with
  | ⟨0, _⟩ =>
    show gather_S8192x10000_S8192x1x1_S8192x1_n_1_0_0_1_2_11.start (ix2 i (0 : Fin 1)) _ 0
      + gather_S8192x10000_S8192x1x1_S8192x1_n_1_0_0_1_2_11.batchCoord (ix2 i (0 : Fin 1)) 0
      + gather_S8192x10000_S8192x1x1_S8192x1_n_1_0_0_1_2_11.offCoord (ix2 i (0 : Fin 1)) 0 = i.val
    rw [GatherDims.start_batching _ _ _ _ (List.mem_singleton.mpr rfl),
      GatherDims.offCoord_eq_zero _ _ _ (fun h => ((GatherDims.mem_sKept _ _).1 h).2 (List.mem_singleton.mpr rfl))]
    simp only [Nat.zero_add, Nat.add_zero]
    unfold GatherDims.batchCoord
    rw [dif_pos (show (0 : Fin S8192x10000.rank) ∈ gather_S8192x10000_S8192x1x1_S8192x1_n_1_0_0_1_2_11.operandBatchingDims
      from List.mem_singleton.mpr rfl)]
    rfl
  | ⟨1, _⟩ =>
    show gather_S8192x10000_S8192x1x1_S8192x1_n_1_0_0_1_2_11.start (ix2 i (0 : Fin 1)) _ 1
      + gather_S8192x10000_S8192x1x1_S8192x1_n_1_0_0_1_2_11.batchCoord (ix2 i (0 : Fin 1)) 1
      + gather_S8192x10000_S8192x1x1_S8192x1_n_1_0_0_1_2_11.offCoord (ix2 i (0 : Fin 1)) 1 = (Cert.Loss.lab x1 i).val
    rw [GatherDims.batchCoord_eq_zero _ _ _ (by decide),
      GatherDims.offCoord_eq_zero _ _ _ (fun h => ((GatherDims.mem_sKept _ _).1 h).1 (List.mem_singleton.mpr rfl))]
    simp only [Nat.add_zero]
    unfold GatherDims.start
    rw [dif_pos (show (1 : Fin S8192x10000.rank) ∈ gather_S8192x10000_S8192x1x1_S8192x1_n_1_0_0_1_2_11.startIndexMap
      from List.mem_singleton.mpr rfl), v5_at x1 hlab, siIdx_row, Cert.Loss.lab_val _ _ (hlab _)]
    have hw := hlab i
    rw [Predicate.toInt_eq_toNat_of_lt (by omega), Int.toNat_natCast]
    exact Nat.min_eq_left (by show _ ≤ 9999; omega)

end

/-! ## The distance matrix at an index -/

section
variable (x0 : (⟨S8192x512, .f32⟩ : BufTy).Contents (Elt Ideal)) (x2 : (⟨S10000x512, .f32⟩ : BufTy).Contents (Elt Ideal))

/-- The squared length of feature row `i`: the zero the sum starts from is absorbed. -/
theorem v1_at (i : Fin 8192) : val_main_v1 (F := Ideal) x0 (ix1 i) = Cert.Loss.fsq x0 i := by
  rw [val_main_v1_apply, val_main_cst_apply, Ideal.ofBits_def, Ideal.ofBits_zero_f32, zero_add]
  refine Finset.sum_congr rfl fun k _ => ?_
  rw [val_main_v0_apply, Ideal.mulf_def,
    show idx_main_v1 (ix1 i) k = ix2 i k from funext fun a => match a with | ⟨0, _⟩ => rfl | ⟨1, _⟩ => rfl]

/-- The squared length of centre row `j`. -/
theorem v4c_at (j : Fin 10000) : val_main_v4 (F := Ideal) x2 (ix1 j) = Cert.Loss.csq x2 j := by
  rw [val_main_v4_apply, val_main_cst_0_apply, Ideal.ofBits_def, Ideal.ofBits_zero_f32, zero_add]
  refine Finset.sum_congr rfl fun k _ => ?_
  rw [val_main_v3_apply, Ideal.mulf_def,
    show idx_main_v4 (ix1 j) k = ix2 j k from funext fun a => match a with | ⟨0, _⟩ => rfl | ⟨1, _⟩ => rfl]

/-- The two squared lengths, each broadcast along the other's axis, added. -/
theorem v8_at (i : Fin 8192) (j : Fin 10000) :
    val_main_v8 (F := Ideal) x0 x2 (ix2 i j) = Cert.Loss.fsq x0 i + Cert.Loss.csq x2 j := by
  rw [val_main_v8_apply, Ideal.addf_def, val_main_v6_apply, val_main_v2_apply, val_main_v7_apply, val_main_v5_apply,
    show idx_main_v2 (idx_main_v6 (ix2 i j)) = ix1 i from funext fun a => match a with | ⟨0, _⟩ => rfl,
    show idx_main_v5 (idx_main_v7 (ix2 i j)) = ix1 j from funext fun a => match a with | ⟨0, _⟩ => rfl,
    v1_at, v4c_at]

/-- The product of the features with the centres' transpose: row against row. -/
theorem v10_at (i : Fin 8192) (j : Fin 10000) :
    val_main_v10 (F := Ideal) x0 x2 (ix2 i j) = Cert.Loss.rowdot x0 x2 i j := by
  rw [val_main_v10_apply]
  refine Finset.sum_congr rfl fun k _ => ?_
  rw [val_main_v9_apply,
    show lidx_main_v10 (ix2 i j) k = ix2 i k from funext fun a => match a with | ⟨0, _⟩ => rfl | ⟨1, _⟩ => rfl,
    show idx_main_v9 (ridx_main_v10 (ix2 i j) k) = ix2 j k from funext fun a => match a with | ⟨0, _⟩ => rfl | ⟨1, _⟩ => rfl]

/-- The distance matrix at (i, j). -/
theorem v13_at (i : Fin 8192) (j : Fin 10000) :
    val_main_v13 (F := Ideal) x0 x2 (ix2 i j)
      = (Cert.Loss.fsq x0 i + Cert.Loss.csq x2 j) - Cert.Loss.twoW * Cert.Loss.rowdot x0 x2 i j := by
  rw [val_main_v13_apply, Ideal.subf_def, v8_at, val_main_v12_apply, Ideal.mulf_def, val_main_v11_apply,
    val_main_cst_1_apply, Ideal.ofBits_def, v10_at]

end

/-! ## The result -/

/-- With every label word a class below 10000, the reference's result is the row-by-row numerator over 8192. -/
theorem ref_value (x0 : (⟨S8192x512, .f32⟩ : BufTy).Contents (Elt Ideal)) (x1 : (⟨S8192, .i32⟩ : BufTy).Contents (Elt Ideal))
    (x2 : (⟨S10000x512, .f32⟩ : BufTy).Contents (Elt Ideal))
    (hlab : ∀ i : Fin 8192, (x1 (ix1 i)).toNat < 10000) :
    Cert.ReferenceIdeal.ReadP.val_main_v17 (F := Ideal) x0 x1 x2
      = fun _ => Cert.Loss.lossOf (Cert.Loss.numR Cert.Loss.twoW x0 x1 x2) := by
  funext i0
  rw [val_main_v17_apply, Ideal.hostDivf_def, val_main_cst_3_apply, Ideal.ofBits_def, val_main_v16_apply,
    val_main_cst_2_apply, Ideal.ofBits_def, Ideal.ofBits_zero_f32, zero_add]
  unfold Cert.Loss.lossOf Cert.Loss.numR
  refine congrArg (fun a => Ideal.div a Cert.Loss.nW) ?_
  rw [sum_idx2]
  refine Finset.sum_congr rfl fun i _ => ?_
  rw [Fin.sum_univ_one, val_main_v15_apply, v12_at x1 hlab, select_one, v13c_at x0 x1 x2 hlab, v13_at]

end Cert.ReferenceIdeal.RefValue

end
-- ==== Proof.LossLaw.lean ====
/-
  The two numerators of the centre loss agree when every entry is a real number.

  Over the reals a finite sum of differences is the difference of the sums, a sum of sums is the sum taken
  apart, and a factor moves across a finite sum. Each numerator is the image of a real expression under the
  inclusion of the reals in the extended reals, and the two real expressions are equal by those three laws.
-/
import proofs.«402682_j45681272160610_3_alg».proof.Proof.Spec
import Idealize.ShloMosaic.PureOps.Ideal.Laws
import Mathlib.Data.EReal.Basic
import Mathlib.Data.EReal.Operations
import Mathlib.Algebra.BigOperators.Ring.Finset

noncomputable section

namespace Cert.Loss

open Idealize.ShloMosaic Idealize.ShloMosaic.ValueIdx

/-- The inclusion of the reals in the extended reals carries a finite sum to the sum of the images. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- With real entries and a real factor, the sums taken apart and the sum taken row by row are the same number. -/
theorem numK_eq_numR (two : EReal) (f : SF.Idx → EReal) (y : SY.Idx → BitVec 32) (c : SC.Idx → EReal)
    (htwo : ∃ t : ℝ, two = (t : EReal)) (hf : ∀ j, ∃ r : ℝ, f j = (r : EReal))
    (hc : ∀ j, ∃ r : ℝ, c j = (r : EReal)) :
    numK two f y c = numR two f y c := by
  obtain ⟨t, rfl⟩ := htwo
  choose fr hfr using hf
  choose cr hcr using hc
  obtain rfl : f = fun j => (fr j : EReal) := funext hfr
  obtain rfl : c = fun j => (cr j : EReal) := funext hcr
  -- the real expressions behind the two numerators
  have hK : numK (t : EReal) (fun j => (fr j : EReal)) y (fun j => (cr j : EReal))
      = (((∑ i : Fin 8192, ∑ d : Fin 512, fr (ix2 i d) * fr (ix2 i d))
            + ∑ i : Fin 8192, ∑ d : Fin 512, cr (ix2 (lab y i) d) * cr (ix2 (lab y i) d))
          - t * ∑ i : Fin 8192, ∑ d : Fin 512, fr (ix2 i d) * cr (ix2 (lab y i) d) : ℝ) := by
    simp only [numK, csq, rowdot, EReal.coe_sub, EReal.coe_add, EReal.coe_mul, coe_sum]
  have hR : numR (t : EReal) (fun j => (fr j : EReal)) y (fun j => (cr j : EReal))
      = ((∑ i : Fin 8192, (((∑ d : Fin 512, fr (ix2 i d) * fr (ix2 i d))
            + ∑ d : Fin 512, cr (ix2 (lab y i) d) * cr (ix2 (lab y i) d))
          - t * ∑ d : Fin 512, fr (ix2 i d) * cr (ix2 (lab y i) d)) : ℝ) : EReal) := by
    simp only [numR, fsq, csq, rowdot, EReal.coe_sub, EReal.coe_add, EReal.coe_mul, coe_sum]
  rw [hK, hR, Finset.sum_sub_distrib, Finset.sum_add_distrib, Finset.mul_sum]

/-- The word `0x40000000` denotes the real number two. -/
theorem twoW_real : ∃ t : ℝ, twoW = (t : EReal) := by
  refine ⟨2, ?_⟩
  show Ideal.ofBits .f32 0x40000000#32 = ((2 : ℝ) : EReal)
  simp [Ideal.ofBits, Ideal.ieee, -EReal.coe_mul]; norm_num

end Cert.Loss

end
-- ==== Proof.PreFacts.lean ====
/-
  The printed precondition, read back: it is a conjunction of three statements "every element satisfies …", each
  a reduction by `and` from 1 that came out 1. The first two say that the absolute value of every feature and of
  every centre is below +∞, so each is a real number; the third that every label word is at least 0 and below 10000
  as a signed word, so its unsigned value is below 10000.
-/
import proofs.«402682_j45681272160610_3_alg».proof.Pre_finite_inputs
import Idealize.ShloMosaic.Lib.ReduceAll
import Idealize.ShloMosaic.Lib.StableHlo.Predicate
import Idealize.ShloMosaic.Lib.ValueIdx
import Idealize.ShloMosaic.Lib.Affine
import Idealize.ShloMosaic.PureOps.Ideal
import Mathlib.Data.EReal.Basic

noncomputable section

namespace Cert.PreFacts

open Idealize.ShloMosaic Cert.Pre_finite_inputs

variable [Cert.Pre_finite_inputs.Facts]

/-- A shape of rank 0 has one index. -/
instance : Subsingleton S_.Idx := ⟨fun a b => funext fun d => d.elim0⟩

/-- The word `0x7F800000` denotes +∞. -/
theorem inf_bits : Ideal.ofBits .f32 0x7F800000#32 = (⊤ : EReal) := by simp [Ideal.ofBits, Ideal.ieee]

/-- An extended real whose absolute value `max x (-x)` is below +∞ is a real number: −∞ has absolute value +∞. -/
theorem real_of_abs_lt (x : EReal) (h : Ideal.cmp .olt (max x (-x)) (Ideal.ofBits .f32 0x7F800000#32) = 1#1) :
    ∃ r : ℝ, x = (r : EReal) := by
  rw [inf_bits] at h
  simp only [Ideal.cmp, StableHlo.Predicate.ofBool_eq_one_iff, decide_eq_true_eq] at h
  induction x using EReal.rec with
  | bot => simp at h
  | coe r => exact ⟨r, rfl⟩
  | top => simp at h

/-- A signed word at least 0 and below 10000 has unsigned value below 10000. -/
theorem toNat_lt (w : BitVec 32) (h0 : IntOp.cmpi .sge w (0#32) = 1#1) (h1 : IntOp.cmpi .slt w (10000#32) = 1#1) :
    w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have h32 := w.isLt
  rw [BitVec.toInt_eq_toNat_cond] at h0 h1
  split at h0 <;> omega

/-- The precondition's three conjuncts, each at the one index of the result. -/
theorem parts (x0 : FVec Ideal S8192x512 .f32) (x1 : IVec S8192 32) (x2 : FVec Ideal S10000x512 .f32)
    (h : fn (F := Ideal) x0 x1 x2 = fun _ => 1#1) :
    (∀ j : S8192x512.Idx, Ideal.cmp .olt (max (x0 j) (-(x0 j))) (Ideal.ofBits .f32 0x7F800000#32) = 1#1)
    ∧ (∀ j : S10000x512.Idx, Ideal.cmp .olt (max (x2 j) (-(x2 j))) (Ideal.ofBits .f32 0x7F800000#32) = 1#1)
    ∧ (∀ j : S8192.Idx, IntOp.cmpi .sge (x1 j) (0#32) = 1#1 ∧ IntOp.cmpi .slt (x1 j) (10000#32) = 1#1) := by
  have h0 := congrFun h ValueIdx.ix0
  dsimp only [fn] at h0
  have h0' : IntOp.andi (IntOp.andi _ _) _ = 1#1 := h0
  obtain ⟨hAB, hC⟩ := IntOp.andi_eq_one.1 h0'
  obtain ⟨hA, hB⟩ := IntOp.andi_eq_one.1 hAB
  refine ⟨fun j => ?_, fun j => ?_, fun j => ?_⟩
  · exact Host.reduce_andi_all _ _ _ _ _ hA j
  · exact Host.reduce_andi_all _ _ _ _ _ hB j
  · have hj := Host.reduce_andi_all _ _ _ _ _ hC j
    have hj' : IntOp.andi (IntOp.cmpi .sge (x1 j) (0#32)) (IntOp.cmpi .slt (x1 j) (10000#32)) = 1#1 := hj
    exact IntOp.andi_eq_one.1 hj'

/-- Under the precondition every feature is a real number. -/
theorem real0 (x0 : FVec Ideal S8192x512 .f32) (x1 : IVec S8192 32) (x2 : FVec Ideal S10000x512 .f32)
    (h : fn (F := Ideal) x0 x1 x2 = fun _ => 1#1) : ∀ j : S8192x512.Idx, ∃ r : ℝ, x0 j = (r : EReal) :=
  fun j => real_of_abs_lt _ ((parts x0 x1 x2 h).1 j)

/-- Under the precondition every centre entry is a real number. -/
theorem real2 (x0 : FVec Ideal S8192x512 .f32) (x1 : IVec S8192 32) (x2 : FVec Ideal S10000x512 .f32)
    (h : fn (F := Ideal) x0 x1 x2 = fun _ => 1#1) : ∀ j : S10000x512.Idx, ∃ r : ℝ, x2 j = (r : EReal) :=
  fun j => real_of_abs_lt _ ((parts x0 x1 x2 h).2.1 j)

/-- Under the precondition every label word names a class: its unsigned value is below 10000. -/
theorem labRange (x0 : FVec Ideal S8192x512 .f32) (x1 : IVec S8192 32) (x2 : FVec Ideal S10000x512 .f32)
    (h : fn (F := Ideal) x0 x1 x2 = fun _ => 1#1) :
    ∀ i : Fin 8192, (x1 (Idealize.ShloMosaic.ValueIdx.ix1 i)).toNat < 10000 :=
  fun i => toNat_lt _ ((parts x0 x1 x2 h).2.2 _).1 ((parts x0 x1 x2 h).2.2 _).2

end Cert.PreFacts

end
-- ==== Proof.lean ====
/-
  The centre loss: a Pallas kernel against its jnp reference, equal over the extended reals.

  For features `f : [8192, 512]`, centres `c : [10000, 512]` and labels `y : [8192]`, both programs compute

      (Σ_i  ‖f_i‖² + ‖c_{y_i}‖² − 2 · f_i · c_{y_i}) / 8192.

  The reference forms the whole [8192, 10000] matrix of squared distances and takes, in each row, the column its label
  names. The kernel takes the three sums apart: the sum of all squared features and the sum of the labelled centres'
  squared lengths are host sums; the dot products `f_i · c_{y_i}` come from the region, which for each block of 256 rows
  walks the (zero-padded) centres in five chunks of 2048 columns, multiplies the block with the chunk, keeps in each row
  the one column whose global index is the row's label, and adds the kept entries into the row. The operand formats
  change no value over the extended reals.

  The statement's precondition says that every feature and every centre entry is finite and that every label is a class,
  `0 ≤ y_i < 10000`. The label range is what makes the two programs speak of the same centre row (the kernel clips a label
  into the range, the reference's take fills a row with no value when its label is outside it and reads from the end for a
  negative one); finiteness is what lets a sum of differences be the difference of the sums and the factor 2 move across a
  sum, which fail at infinite entries.

  The frames of the two kernel programs are the generated frame certificates; the reference's frame is its run with the
  result dropped; the idealization rewrote nothing, so there is nothing to preserve.
-/
import proofs.«402682_j45681272160610_3_alg».proof.Defs
import proofs.«402682_j45681272160610_3_alg».proof.Proof.Gen.Kernel
import proofs.«402682_j45681272160610_3_alg».proof.Proof.Gen.Kernel.Frame
import proofs.«402682_j45681272160610_3_alg».proof.Proof.Gen.KernelIdeal
import proofs.«402682_j45681272160610_3_alg».proof.Proof.Gen.KernelIdeal.Frame
import proofs.«402682_j45681272160610_3_alg».proof.Proof.Gen.ReferenceIdeal
import proofs.«402682_j45681272160610_3_alg».proof.Proof.Gen.Pre_finite_inputs
import proofs.«402682_j45681272160610_3_alg».proof.Proof.KernelValue
import proofs.«402682_j45681272160610_3_alg».proof.Proof.RefValue
import proofs.«402682_j45681272160610_3_alg».proof.Proof.LossLaw
import proofs.«402682_j45681272160610_3_alg».proof.Proof.PreFacts
import Idealize.ShloMosaic.Adequacy
import Idealize.ShloMosaic.Init

noncomputable section

namespace Cert.Proof

open Idealize.ShloMosaic Idealize.SL.Sem Idealize.ShloMosaic.ValueIdx

/-- The two kernel programs run, fault nowhere and leave their arguments as launched. -/
theorem frame_k : Cert.frame_Kernel := fun m ρ _ => Cert.Kernel.Gen.frame m ρ
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments and satisfy the precondition, the kernel ends at its numerator (the three
    sums taken apart) over 8192 and the reference at its own (row by row) over 8192; with real entries the numerators are
    one number. -/
theorem algebraic : Cert.algebraic_KernelIdeal_ReferenceIdeal := by
  intro m ρ m' ρ' hpre hagree
  have hlab : ∀ c : Dev Cert.KernelIdeal.nD, ∀ i : Fin 8192,
      (Cert.KernelIdeal.KernelValue.y0 m c (ix1 i)).toNat < 10000 :=
    fun c i => Cert.PreFacts.labRange _ _ _ (hpre c) i
  refine ⟨_, Cert.KernelIdeal.KernelValue.run m ρ hlab, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v17_eq _ _ _).trans ?_
  rw [(hagree c).1, (hagree c).2.1, (hagree c).2.2]
  refine (Cert.ReferenceIdeal.RefValue.ref_value _ _ _ (hlab c)).trans ?_
  funext u
  exact congrArg Cert.Loss.lossOf
    (Cert.Loss.numK_eq_numR _ _ _ _ Cert.Loss.twoW_real (Cert.PreFacts.real0 _ _ _ (hpre c)) (Cert.PreFacts.real2 _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
